-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S10000x40 : Shape := ⟨2, ![10000, 40]⟩
abbrev S400x10000 : Shape := ⟨2, ![400, 10000]⟩
abbrev S400x40 : Shape := ⟨2, ![400, 40]⟩
abbrev S400x128 : Shape := ⟨2, ![400, 128]⟩
abbrev S400 : Shape := ⟨1, ![400]⟩
abbrev S400x1 : Shape := ⟨2, ![400, 1]⟩

abbrev nBuf : Space → Nat
  | .hbm => 6
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x40, .f32⟩
  | .hbm, ⟨4, _⟩ => ⟨S10000x40, .f32⟩
  | .hbm, ⟨5, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S128x40, .f32⟩
  | .local _ .vmem, ⟨3, _⟩ => ⟨S400x10000, .f32⟩
  | .local _ .vmem, ⟨4, _⟩ => ⟨S400x10000, .f32⟩
  | .local _ .vmem, ⟨5, _⟩ => ⟨S400x40, .f32⟩
  | .local _ .vmem, ⟨6, _⟩ => ⟨S400x40, .f32⟩
  | .local _ .vmem, ⟨7, _⟩ => ⟨S10000x128, .f32⟩
  | .local _ .vmem, ⟨8, _⟩ => ⟨S10000x40, .f32⟩
  | .local _ .vmem, ⟨9, _⟩ => ⟨S400x10000, .f32⟩
  | .local _ .vmem, ⟨10, _⟩ => ⟨S400x10000, .f32⟩
  | .local _ .vmem, ⟨11, _⟩ => ⟨S400x40, .f32⟩
  | .local _ .vmem, ⟨12, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x40 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S128x40_S128x40_0_0 : ∀ a, (![0, 0] : Fin 2 → Nat) a + S128x40.size a ≤ S128x40.size a
  h_S128x40 : 0 < S128x40.numel
  inb_S400x40_S400x40_0_0 : ∀ a, (![0, 0] : Fin 2 → Nat) a + S400x40.size a ≤ S400x40.size a
  h_S400x40 : 0 < S400x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  reduces_S400x40_S400 : S400x40.Reduces [1] S400
  shapeCasts_S400_S400x1 : S400.ShapeCasts S400x1
  broadcasts_S400x1_S400x40 : S400x1.Broadcasts S400x40
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x40_S400x40_1_0_0_1_n_n_wf : DotDims.WF S400x128 S128x40 S400x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x40.size a ≤ S128x40.size a
  hwx0_2 : ∀ i : grid0.Coords, EltTy.bits .f32 = 32 ∨ (Rect.block (s := S128x40) S128x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x40.size a ≤ S10000x40.size a
  hwx0_4 : ∀ i : grid0.Coords, EltTy.bits .f32 = 32 ∨ (Rect.block (s := S10000x40) S400x40.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x40.size a ≤ S10000x40.size a
  hwx1_0 : ∀ i : grid1.Coords, EltTy.bits .f32 = 32 ∨ (Rect.block (s := S10000x40) S10000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x40.size a ≤ S10000x40.size a
  hwx1_2 : ∀ i : grid1.Coords, EltTy.bits .f32 = 32 ∨ (Rect.block (s := S10000x40) S400x40.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S400x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v0) S10000x40.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S400x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S_ : Shape := ⟨0, ![]⟩
abbrev S10000x40 : Shape := ⟨2, ![10000, 40]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x40, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x40, .f32⟩
  | .hbm, ⟨10, _⟩ => ⟨S10000x40, .f32⟩
  | .hbm, ⟨11, _⟩ => ⟨S_, .f32⟩
  | .hbm, ⟨12, _⟩ => ⟨S10000x40, .f32⟩
  | .hbm, ⟨13, _⟩ => ⟨S10000x40, .f32⟩
  | .hbm, ⟨14, _⟩ => ⟨S_, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x40, .f32⟩
  | .hbm, ⟨21, _⟩ => ⟨S10000x40, .f32⟩
  | .hbm, ⟨22, _⟩ => ⟨S10000x40, .f32⟩
  | .hbm, ⟨23, _⟩ => ⟨S_, .f32⟩
  | .hbm, ⟨24, _⟩ => ⟨S10000, .f32⟩
  | .hbm, ⟨25, _⟩ => ⟨S10000x1, .f32⟩
  | .hbm, ⟨26, _⟩ => ⟨S10000x1, .f32⟩
  | .hbm, ⟨27, _⟩ => ⟨S10000x40, .f32⟩
  | .hbm, ⟨28, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_call2_cst : Ref sig .tc := ⟨.hbm, 14, rfl⟩
abbrev main_call2_v0 : Ref sig .tc := ⟨.hbm, 15, rfl⟩
abbrev main_call2_cst_0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_v6 : Ref sig .tc := ⟨.hbm, 22, rfl⟩
abbrev main_call2_cst_1 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_v6 : Ref sig .tc := ⟨.hbm, 28, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S_S10000x40 : S_.BroadcastsInDim S10000x40 (![] : Fin 0 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KPassA.lean ====
/-
  The first pass as a pipeline region: the frame of one grid point, the invariant that carries the scratch from
  point to point, and the region's proof data.

  The region has five windows over a grid of 25 points: the whole arrays `x : [10000, 128]`, `w1 : [128, 128]` and
  `w2 : [128, 40]` (each fetched once), the block of 400 rows of the propagation matrix at the point, and the block of
  400 rows of the result, written back at every point. Beside them the body has a scratch buffer `[10000, 128]` of
  its own. At the first point the body stores into the scratch one value of the blocks of `x` and `w1` (`scr`); at
  every point it then stores over the whole output block one value of the block of the matrix, the scratch and the
  block of `w2` (`outA`). At the later points the scratch is only read.

  So the scratch holds the same contents after every point: `scr` of the blocks of `x` and `w1` at the first point
  (`S1`). The region's invariant says so: before the first point the scoped buffers no window stages hold anything;
  before every later point the scratch holds `S1` and the others hold anything (`PhiS`).

  Everything is stated at a parameter `V`, the unscoped buffers' contents when the region is entered, and for any
  float instance.
-/
import proofs.«135058_g16509854286320_cont_7to1_1500_2_alg».proof.Proof.Gen.Kernel.Launch
import proofs.«135058_g16509854286320_cont_7to1_1500_2_alg».proof.Proof.Gen.Kernel.Skeleton
import proofs.«135058_g16509854286320_cont_7to1_1500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole buffer -/

abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rW2 : Rect S128x40 := Rect.unit (s := S128x40) ![0, 0] S128x40.size inb_S128x40_S128x40_0_0
abbrev rA : Rect S400x10000 := Rect.unit (s := S400x10000) ![0, 0] S400x10000.size inb_S400x10000_S400x10000_0_0
abbrev rO : Rect S400x40 := Rect.unit (s := S400x40) ![0, 0] S400x40.size inb_S400x40_S400x40_0_0

/-- What the first point's store leaves in the scratch, from the blocks of `x` and `w1`. -/
def scr (x0 : Vec F S10000x128 .f32) (x1 : Vec F S128x128 .f32) : Vec F S10000x128 .f32 :=
  View.canon [⟨rX, k0_pay1 (View.ld x0 rX) (View.ld x1 rW1)⟩]

/-- The output's staging buffer after the body, from the block of `w2`, the block of the matrix and the scratch. -/
def outA (x2 : Vec F S128x40 .f32) (x3 : Vec F S400x10000 .f32) (xs : Vec F S10000x128 .f32) : Vec F S400x40 .f32 :=
  View.canon [⟨rO, k0_pay2 (View.ld x3 rA) (View.ld xs rX) (View.ld x2 rW2)⟩]

theorem coverS (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

theorem coverO (p0 : Vec F S400x40 .f32) (y : S400x40.Idx) :
    ∃ pc ∈ ([⟨rO, p0⟩] : List (View.Piece (Elt F) S400x40 .f32)), y ∈ pc.1.set :=
  View.cover_of_tiled [⟨rO, p0⟩] S400x40.size (by rfl) y

/-! ## The body's branch -/

/-- The condition of the body's branch, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (by decide +kernel : ∀ t : Fin grid0.N, cond (grid0.coords t) ↔ t.val = 0)

/-! ## The body's triple, case by case -/

set_option maxHeartbeats 2000000 in
/-- At the first point: the inputs' memrefs at their contents, the output's and the scratch at anything; the body
    runs to the continuation holding the inputs' as they were, the scratch at `scr x0 x1` and the output's at
    `outA` of that. -/
theorem sound_first (c : Dev nD) (E : Set ℕ) (i : grid0.Coords) (hc : cond i)
    (arg1 : Memref sig .tc .vmem S10000x128 .f32) (harg1 : arg1.IsWhole) (arg2 : Memref sig .tc .vmem S128x128 .f32) (harg2 : arg2.IsWhole)
    (arg3 : Memref sig .tc .vmem S128x40 .f32) (harg3 : arg3.IsWhole) (arg4 : Memref sig .tc .vmem S400x10000 .f32) (harg4 : arg4.IsWhole)
    (arg5 : Memref sig .tc .vmem S400x40 .f32) (harg5 : arg5.IsWhole) (arg6 : Memref sig .tc .vmem S10000x128 .f32) (harg6 : arg6.IsWhole)
    (x0 : Vec F S10000x128 .f32) (x1 : Vec F S128x128 .f32) (x2 : Vec F S128x40 .f32) (x3 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x2 x3 (scr x0 x1))
            ∗ owns (c : Thread nD τ) arg6 fullShare (scr x0 x1)) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (coverO _), View.readCov_eq_canon_ld _ _ _ (coverS _)]
    rfl
  iexists _; isplitr
  swap; · iexact H5
  ipureintro
  sl_unfold_words
  exact View.read_writes_eq_canon _ _ _ (coverS _)

set_option maxHeartbeats 2000000 in
/-- At a later point: the scratch at contents `xs`; the body runs to the continuation holding the inputs' and the
    scratch as they were and the output's at `outA x2 x3 xs`. -/
theorem sound_rest (c : Dev nD) (E : Set ℕ) (i : grid0.Coords) (hc : ¬cond i)
    (arg1 : Memref sig .tc .vmem S10000x128 .f32) (harg1 : arg1.IsWhole) (arg2 : Memref sig .tc .vmem S128x128 .f32) (harg2 : arg2.IsWhole)
    (arg3 : Memref sig .tc .vmem S128x40 .f32) (harg3 : arg3.IsWhole) (arg4 : Memref sig .tc .vmem S400x10000 .f32) (harg4 : arg4.IsWhole)
    (arg5 : Memref sig .tc .vmem S400x40 .f32) (harg5 : arg5.IsWhole) (arg6 : Memref sig .tc .vmem S10000x128 .f32) (harg6 : arg6.IsWhole)
    (x0 : Vec F S10000x128 .f32) (x1 : Vec F S128x128 .f32) (x2 : Vec F S128x40 .f32) (x3 : Vec F S400x10000 .f32) (xs : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x2 x3 xs)
            ∗ owns (c : Thread nD τ) arg6 fullShare xs) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  iexists f5; isplitr; · ipureintro; rfl
  iexact H5

/-! ## The scratch and the invariant -/

/-- The scratch as a memref: a whole scoped buffer of the kernel's own. -/
abbrev scM : Memref sig .tc .vmem S10000x128 .f32 := Memref.whole cc0_scratch0

/-- The grid's first point. -/
def first : Fin cfg0.N := ⟨0, by rw [show cfg0.N = 25 from N_0]; exact Nat.succ_pos _⟩

/-- What the scratch holds after every point: the first point's store, of the blocks of `x` and `w1` there. -/
def S1 (c : Dev nD) : Vec F S10000x128 .f32 := scr (iblk V c 0 first) (iblk V c 1 first)

/-- The scoped buffers no window of this region stages, the scratch apart: the other region's staging buffers, each
    at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-- The region's invariant before position `n`: before the first point the class's; afterwards the scratch at `S1`,
    the other scoped buffers at anything, the generator register at some state. -/
def PhiS (c : Dev nD) : ℕ → sProp 𝕄
  | 0 => Pipeline.ΦA spec0 c
  | _ + 1 => iprop(iprop(owns (c : Thread nD τ) scM fullShare (S1 V c) ∗ others c) ∗ (∃ r, prngReg c r))

theorem PhiS_pos (c : Dev nD) (n : ℕ) (hn : n ≠ 0) :
    PhiS V c n = iprop(iprop(owns (c : Thread nD τ) scM fullShare (S1 V c) ∗ others c) ∗ (∃ r, prngReg c r)) := by
  cases n with
  | zero => exact absurd rfl hn
  | succ n => rfl

/-! ## The region's proof data -/

/-- The proof data on core `c`: the arrays as the region finds them; after the body at point `t` each input's
    buffer at its block and the output's at `outA` of the blocks of `w2` and of the matrix and of `S1`; the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outA (iblk V c 2 t) (iblk V c 3 t) (S1 V c)
  Φ t := PhiS V c t.val
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop(iprop(owns (c : Thread nD τ) scM fullShare (S1 V c) ∗ others c) ∗ (∃ r, prngReg c r)) := rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outA (iblk V c 2 t) (iblk V c 3 t) (S1 V c) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d
theorem before_3 (c : Dev nD) (t : Fin cfg0.N) (d) : (dat V c).before 3 t d = iblk V c 3 t :=
  before3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. At the first the invariant hands over the scratch at anything and takes it back at `S1`,
    which is that point's store; at a later point it hands the scratch over at `S1` and takes it back unchanged. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    Phi_succ, Phi_castSucc, after_0, after_1, after_2, after_3, after_4]
  by_cases hz : t.val = 0
  · have ht : t = first := Fin.ext hz
    subst ht
    rw [show PhiS V c (first : Fin cfg0.N).val = Pipeline.ΦA spec0 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (sound_first c Set.univ (grid0.coords first) ((hcond first).mpr rfl) _ _ _ _ _ _ _ _ _ _ _ _
      (iblk V c 0 first) (iblk V c 1 first) (iblk V c 2 first) (iblk V c 3 first) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [PhiS_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (sound_rest c Set.univ (grid0.coords t) (fun h => hz ((hcond t).mp h)) _ _ _ _ _ _ _ _ _ _ _ _
      (iblk V c 0 t) (iblk V c 1 t) (iblk V c 2 t) (iblk V c 3 t) (S1 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the class's back: the scratch's named contents are forgotten. -/
theorem hout (c : Dev nD) : (dat V c).Φ (Fin.last cfg0.N) ⊢ Pipeline.ΦA spec0 c := by
  rw [show (dat V c).Φ (Fin.last cfg0.N) = PhiS V c (Fin.last cfg0.N).val from rfl,
    PhiS_pos V c _ (by rw [Fin.val_last, show cfg0.N = 25 from N_0]; exact Nat.succ_ne_zero _), PhiA_eq]
  iintro ⟨⟨HS, Hoth⟩, Hg⟩
  isplitl [HS Hoth]
  · isplitl [HS]
    · iexists _; iexact HS
    iexact Hoth
  iexact Hg

end Cert.Kernel.PassA

end
-- ==== Proof.KPassB.lean ====
/-
  The second pass as a pipeline region: the frame of one grid point and the region's proof data.

  The region has three windows over a grid of 25 points: the whole `[10000, 40]` array `s2` (fetched once), the
  block of 400 rows of the propagation matrix at the point, and the block of 400 rows of the result, written back at
  every point. At a point the body reads the two input blocks and stores one value over the whole output block, so
  after the body the output's staging buffer holds that value of the two blocks (`outB`) and the inputs' buffers are
  as they were. Nothing is carried from point to point: the invariant is the class's (the scoped buffers no window
  stages at anything, the generator register at some state).

  Everything is stated at a parameter `V`, the unscoped buffers' contents when the region is entered, and for any
  float instance.
-/
import proofs.«135058_g16509854286320_cont_7to1_1500_2_alg».proof.Proof.Gen.Kernel.Launch
import proofs.«135058_g16509854286320_cont_7to1_1500_2_alg».proof.Proof.Gen.Kernel.Skeleton
import proofs.«135058_g16509854286320_cont_7to1_1500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole buffer -/

abbrev rS : Rect S10000x40 := Rect.unit (s := S10000x40) ![0, 0] S10000x40.size inb_S10000x40_S10000x40_0_0
abbrev rA : Rect S400x10000 := Rect.unit (s := S400x10000) ![0, 0] S400x10000.size inb_S400x10000_S400x10000_0_0
abbrev rO : Rect S400x40 := Rect.unit (s := S400x40) ![0, 0] S400x40.size inb_S400x40_S400x40_0_0

/-- The output's staging buffer after the body, from the two input blocks: its one store as a piece. -/
def outB (x0 : Vec F S10000x40 .f32) (x1 : Vec F S400x10000 .f32) : Vec F S400x40 .f32 :=
  View.canon [⟨rO, k1_pay1 (View.ld x1 rA) (View.ld x0 rS)⟩]

/-- The one store covers the buffer. -/
theorem coverB (p0 : Vec F S400x40 .f32) (y : S400x40.Idx) :
    ∃ pc ∈ ([⟨rO, p0⟩] : List (View.Piece (Elt F) S400x40 .f32)), y ∈ pc.1.set :=
  View.cover_of_tiled [⟨rO, p0⟩] S400x40.size (by rfl) y

/-! ## The body's triple -/

set_option maxHeartbeats 1000000 in
/-- The body on whole staging memrefs, the inputs' at contents `x0`, `x1` and the output's at anything, runs to the
    continuation holding the inputs' as they were and the output's at `outB x0 x1`. -/
theorem sound_kernel (c : Dev nD) (E : Set ℕ) (i : grid1.Coords)
    (arg1 : Memref sig .tc .vmem S10000x40 .f32) (harg1 : arg1.IsWhole) (arg2 : Memref sig .tc .vmem S400x10000 .f32) (harg2 : arg2.IsWhole)
    (arg3 : Memref sig .tc .vmem S400x40 .f32) (harg3 : arg3.IsWhole)
    (x0 : Vec F S10000x40 .f32) (x1 : Vec F S400x10000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outB x0 x1)) -∗ K ⟨⟩))
      ⊢ wp frame (wpE (defs₀ (F := F)) Variants.none c none) E (cc1__pass_b_kernel i arg1 harg1 arg2 harg2 arg3 harg3) K := by
  simp only [cc1__pass_b_kernel_eq_skeleton]; unfold cc1__pass_b_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverB _)

/-! ## The region's proof data -/

/-- The proof data on core `c`: the arrays as the region finds them; after the body at point `t` each input's
    buffer at its block and the output's at `outB` of the input blocks; the class's invariant; nothing owed; full
    shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outB (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outB (iblk V c 0 t) (iblk V c 1 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat V c).Φ 0 := by
  rw [show (dat V c).Φ 0 = Pipeline.ΦA spec1 c from rfl]

/-- and the invariant after the last point gives it back. -/
theorem hout (c : Dev nD) : (dat V c).Φ (Fin.last cfg1.N) ⊢ Pipeline.ΦA spec1 c := by
  rw [show (dat V c).Φ (Fin.last cfg1.N) = Pipeline.ΦA spec1 c from rfl]

end Cert.Kernel.PassB

end
-- ==== Proof.KRun.lean ====
/-
  The whole program as two pipeline regions, run from the launch to the return.

  @main is the first pass's region followed by the second's, with no host operation between them. The unscoped
  buffers hold the launch memory when the first region is entered (`W0`); when it is left its windows' arrays hold
  what its write-backs leave and every other buffer what it held (`W1`); the second region is entered from that and
  left the same way (`W2`). Each region's proof data is taken at its entry contents, each region is a segment
  record over the thread state "every unscoped buffer at the boundary's contents, the generator register at some
  state, nothing owed", and the run ends with every unscoped buffer at `W2` (`run_all`).

  Read at an argument array `W2` walks back to the launch memory: no region writes an argument. Read at the result
  it is what the second region's write-backs leave, and the array between the passes what the first region's leave.

  For any float instance.
-/
import proofs.«135058_g16509854286320_cont_7to1_1500_2_alg».proof.Proof.Gen.Kernel.Launch
import proofs.«135058_g16509854286320_cont_7to1_1500_2_alg».proof.Proof.Gen.Kernel.Skeleton
import proofs.«135058_g16509854286320_cont_7to1_1500_2_alg».proof.Proof.Gen.Kernel.Points
import proofs.«135058_g16509854286320_cont_7to1_1500_2_alg».proof.Proof.KPassA
import proofs.«135058_g16509854286320_cont_7to1_1500_2_alg».proof.Proof.KPassB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (PassA.dat (V0 m ρ) c).arrAt w cfg0.N
theorem W1_arr (c : Dev nD) (w : Fin cfg0.W) :
    W1 m ρ c (Proc.devRef .tc (Pipeline.arrRef spec0 w)) = (PassA.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (PassA.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit, likewise. -/
def W2 (c : Dev nD) : Valuation τ sig (Elt F) :=
  Pipeline.withArrays spec1 c (W1 m ρ c) fun w => (PassB.dat (V1 m ρ) c).arrAt w cfg1.N
theorem W2_arr (c : Dev nD) (w : Fin cfg1.W) :
    W2 m ρ c (Proc.devRef .tc (Pipeline.arrRef spec1 w)) = (PassB.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (PassB.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the arrays the passes write -/

/-- `x`: the first region reads it through an input window, the second bypasses it. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((PassA.dat (V0 m ρ) c).arrAt_in 0 rfl _).trans (PassA.A_eq (V0 m ρ) c 0))
    _ = m ((c : Thread nD τ).loc main_arg0) := rfl

/-- The propagation matrix: both regions read it through an input window. -/
theorem W1_main_arg1 (c : Dev nD) : W1 m ρ c (Proc.devRef .tc main_arg1) = m ((c : Thread nD τ).loc main_arg1) :=
  (W1_arr m ρ c 3).trans (((PassA.dat (V0 m ρ) c).arrAt_in 3 rfl _).trans (PassA.A_eq (V0 m ρ) c 3))
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((PassB.dat (V1 m ρ) c).arrAt_in 1 rfl _).trans (PassB.A_eq (V1 m ρ) c 1))
    _ = m ((c : Thread nD τ).loc main_arg1) := W1_main_arg1 m ρ c

/-- `w1`. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((PassA.dat (V0 m ρ) c).arrAt_in 1 rfl _).trans (PassA.A_eq (V0 m ρ) c 1))
    _ = m ((c : Thread nD τ).loc main_arg2) := rfl

/-- `w2`. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((PassA.dat (V0 m ρ) c).arrAt_in 2 rfl _).trans (PassA.A_eq (V0 m ρ) c 2))
    _ = m ((c : Thread nD τ).loc main_arg3) := rfl

/-- The array between the passes is what the first region's write-backs leave. -/
theorem W1_between (c : Dev nD) : W1 m ρ c (Proc.devRef .tc main_call0_v0) = (PassA.dat (V0 m ρ) c).arrAt 4 cfg0.N :=
  W1_arr m ρ c 4

/-- The result is what the second region's write-backs leave. -/
theorem W2_result (c : Dev nD) : W2 m ρ c (Proc.devRef .tc main_v0) = (PassB.dat (V1 m ρ) c).arrAt 2 cfg1.N :=
  W2_arr m ρ c 2

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => PassA.dat (V0 m ρ) c
  | ⟨1, _⟩ => fun c => PassB.dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (PassA.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (PassA.dat (V0 m ρ) c).Φ 0 from rfl]
    iintro ⟨Hp, -, Hr⟩
    iapply (PassA.hin (V0 m ρ) c)
    unfold Pipeline.ΦA
    isplitl [Hr]; · iexact Hr
    iexact Hp
  hout c := by
    rw [Pipeline.ownSems0_none, show (pdats m ρ 0 c).Φ (Fin.last _) = (PassA.dat (V0 m ρ) c).Φ (Fin.last cfg0.N) from rfl]
    iintro HP
    ihave H := (PassA.hout (V0 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (PassB.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (PassB.dat (V1 m ρ) c).Φ 0 from rfl]
    iintro ⟨Hp, -, Hr⟩
    iapply (PassB.hin (V1 m ρ) c)
    unfold Pipeline.ΦA
    isplitl [Hr]; · iexact Hr
    iexact Hp
  hout c := by
    rw [Pipeline.ownSems0_none, show (pdats m ρ 1 c).Φ (Fin.last _) = (PassB.dat (V1 m ρ) c).Φ (Fin.last cfg1.N) from rfl]
    iintro HP
    ihave H := (PassB.hout (V1 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters every weakly fair execution of @main terminates, nothing faulting, and every
    final state has every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.Kernel.Run

end
-- ==== Proof.PassA.lean ====
/-
  The first pass as a pipeline region: the frame of one grid point, the invariant that carries the scratch from
  point to point, and the region's proof data.

  The region has five windows over a grid of 25 points: the whole arrays `x : [10000, 128]`, `w1 : [128, 128]` and
  `w2 : [128, 40]` (each fetched once), the block of 400 rows of the propagation matrix at the point, and the block of
  400 rows of the result, written back at every point. Beside them the body has a scratch buffer `[10000, 128]` of
  its own. At the first point the body stores into the scratch one value of the blocks of `x` and `w1` (`scr`); at
  every point it then stores over the whole output block one value of the block of the matrix, the scratch and the
  block of `w2` (`outA`). At the later points the scratch is only read.

  So the scratch holds the same contents after every point: `scr` of the blocks of `x` and `w1` at the first point
  (`S1`). The region's invariant says so: before the first point the scoped buffers no window stages hold anything;
  before every later point the scratch holds `S1` and the others hold anything (`PhiS`).

  Everything is stated at a parameter `V`, the unscoped buffers' contents when the region is entered, and for any
  float instance.
-/
import proofs.«135058_g16509854286320_cont_7to1_1500_2_alg».proof.Proof.Gen.KernelIdeal.Launch
import proofs.«135058_g16509854286320_cont_7to1_1500_2_alg».proof.Proof.Gen.KernelIdeal.Skeleton
import proofs.«135058_g16509854286320_cont_7to1_1500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole buffer -/

abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rW2 : Rect S128x40 := Rect.unit (s := S128x40) ![0, 0] S128x40.size inb_S128x40_S128x40_0_0
abbrev rA : Rect S400x10000 := Rect.unit (s := S400x10000) ![0, 0] S400x10000.size inb_S400x10000_S400x10000_0_0
abbrev rO : Rect S400x40 := Rect.unit (s := S400x40) ![0, 0] S400x40.size inb_S400x40_S400x40_0_0

/-- What the first point's store leaves in the scratch, from the blocks of `x` and `w1`. -/
def scr (x0 : Vec F S10000x128 .f32) (x1 : Vec F S128x128 .f32) : Vec F S10000x128 .f32 :=
  View.canon [⟨rX, k0_pay1 (View.ld x0 rX) (View.ld x1 rW1)⟩]

/-- The output's staging buffer after the body, from the block of `w2`, the block of the matrix and the scratch. -/
def outA (x2 : Vec F S128x40 .f32) (x3 : Vec F S400x10000 .f32) (xs : Vec F S10000x128 .f32) : Vec F S400x40 .f32 :=
  View.canon [⟨rO, k0_pay2 (View.ld x3 rA) (View.ld xs rX) (View.ld x2 rW2)⟩]

theorem coverS (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

theorem coverO (p0 : Vec F S400x40 .f32) (y : S400x40.Idx) :
    ∃ pc ∈ ([⟨rO, p0⟩] : List (View.Piece (Elt F) S400x40 .f32)), y ∈ pc.1.set :=
  View.cover_of_tiled [⟨rO, p0⟩] S400x40.size (by rfl) y

/-! ## The body's branch -/

/-- The condition of the body's branch, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (by decide +kernel : ∀ t : Fin grid0.N, cond (grid0.coords t) ↔ t.val = 0)

/-! ## The body's triple, case by case -/

set_option maxHeartbeats 2000000 in
/-- At the first point: the inputs' memrefs at their contents, the output's and the scratch at anything; the body
    runs to the continuation holding the inputs' as they were, the scratch at `scr x0 x1` and the output's at
    `outA` of that. -/
theorem sound_first (c : Dev nD) (E : Set ℕ) (i : grid0.Coords) (hc : cond i)
    (arg1 : Memref sig .tc .vmem S10000x128 .f32) (harg1 : arg1.IsWhole) (arg2 : Memref sig .tc .vmem S128x128 .f32) (harg2 : arg2.IsWhole)
    (arg3 : Memref sig .tc .vmem S128x40 .f32) (harg3 : arg3.IsWhole) (arg4 : Memref sig .tc .vmem S400x10000 .f32) (harg4 : arg4.IsWhole)
    (arg5 : Memref sig .tc .vmem S400x40 .f32) (harg5 : arg5.IsWhole) (arg6 : Memref sig .tc .vmem S10000x128 .f32) (harg6 : arg6.IsWhole)
    (x0 : Vec F S10000x128 .f32) (x1 : Vec F S128x128 .f32) (x2 : Vec F S128x40 .f32) (x3 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x2 x3 (scr x0 x1))
            ∗ owns (c : Thread nD τ) arg6 fullShare (scr x0 x1)) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (coverO _), View.readCov_eq_canon_ld _ _ _ (coverS _)]
    rfl
  iexists _; isplitr
  swap; · iexact H5
  ipureintro
  sl_unfold_words
  exact View.read_writes_eq_canon _ _ _ (coverS _)

set_option maxHeartbeats 2000000 in
/-- At a later point: the scratch at contents `xs`; the body runs to the continuation holding the inputs' and the
    scratch as they were and the output's at `outA x2 x3 xs`. -/
theorem sound_rest (c : Dev nD) (E : Set ℕ) (i : grid0.Coords) (hc : ¬cond i)
    (arg1 : Memref sig .tc .vmem S10000x128 .f32) (harg1 : arg1.IsWhole) (arg2 : Memref sig .tc .vmem S128x128 .f32) (harg2 : arg2.IsWhole)
    (arg3 : Memref sig .tc .vmem S128x40 .f32) (harg3 : arg3.IsWhole) (arg4 : Memref sig .tc .vmem S400x10000 .f32) (harg4 : arg4.IsWhole)
    (arg5 : Memref sig .tc .vmem S400x40 .f32) (harg5 : arg5.IsWhole) (arg6 : Memref sig .tc .vmem S10000x128 .f32) (harg6 : arg6.IsWhole)
    (x0 : Vec F S10000x128 .f32) (x1 : Vec F S128x128 .f32) (x2 : Vec F S128x40 .f32) (x3 : Vec F S400x10000 .f32) (xs : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x2 x3 xs)
            ∗ owns (c : Thread nD τ) arg6 fullShare xs) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  iexists f5; isplitr; · ipureintro; rfl
  iexact H5

/-! ## The scratch and the invariant -/

/-- The scratch as a memref: a whole scoped buffer of the kernel's own. -/
abbrev scM : Memref sig .tc .vmem S10000x128 .f32 := Memref.whole cc0_scratch0

/-- The grid's first point. -/
def first : Fin cfg0.N := ⟨0, by rw [show cfg0.N = 25 from N_0]; exact Nat.succ_pos _⟩

/-- What the scratch holds after every point: the first point's store, of the blocks of `x` and `w1` there. -/
def S1 (c : Dev nD) : Vec F S10000x128 .f32 := scr (iblk V c 0 first) (iblk V c 1 first)

/-- The scoped buffers no window of this region stages, the scratch apart: the other region's staging buffers, each
    at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-- The region's invariant before position `n`: before the first point the class's; afterwards the scratch at `S1`,
    the other scoped buffers at anything, the generator register at some state. -/
def PhiS (c : Dev nD) : ℕ → sProp 𝕄
  | 0 => Pipeline.ΦA spec0 c
  | _ + 1 => iprop(iprop(owns (c : Thread nD τ) scM fullShare (S1 V c) ∗ others c) ∗ (∃ r, prngReg c r))

theorem PhiS_pos (c : Dev nD) (n : ℕ) (hn : n ≠ 0) :
    PhiS V c n = iprop(iprop(owns (c : Thread nD τ) scM fullShare (S1 V c) ∗ others c) ∗ (∃ r, prngReg c r)) := by
  cases n with
  | zero => exact absurd rfl hn
  | succ n => rfl

/-! ## The region's proof data -/

/-- The proof data on core `c`: the arrays as the region finds them; after the body at point `t` each input's
    buffer at its block and the output's at `outA` of the blocks of `w2` and of the matrix and of `S1`; the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outA (iblk V c 2 t) (iblk V c 3 t) (S1 V c)
  Φ t := PhiS V c t.val
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop(iprop(owns (c : Thread nD τ) scM fullShare (S1 V c) ∗ others c) ∗ (∃ r, prngReg c r)) := rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outA (iblk V c 2 t) (iblk V c 3 t) (S1 V c) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d
theorem before_3 (c : Dev nD) (t : Fin cfg0.N) (d) : (dat V c).before 3 t d = iblk V c 3 t :=
  before3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. At the first the invariant hands over the scratch at anything and takes it back at `S1`,
    which is that point's store; at a later point it hands the scratch over at `S1` and takes it back unchanged. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    Phi_succ, Phi_castSucc, after_0, after_1, after_2, after_3, after_4]
  by_cases hz : t.val = 0
  · have ht : t = first := Fin.ext hz
    subst ht
    rw [show PhiS V c (first : Fin cfg0.N).val = Pipeline.ΦA spec0 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (sound_first c Set.univ (grid0.coords first) ((hcond first).mpr rfl) _ _ _ _ _ _ _ _ _ _ _ _
      (iblk V c 0 first) (iblk V c 1 first) (iblk V c 2 first) (iblk V c 3 first) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [PhiS_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (sound_rest c Set.univ (grid0.coords t) (fun h => hz ((hcond t).mp h)) _ _ _ _ _ _ _ _ _ _ _ _
      (iblk V c 0 t) (iblk V c 1 t) (iblk V c 2 t) (iblk V c 3 t) (S1 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the class's back: the scratch's named contents are forgotten. -/
theorem hout (c : Dev nD) : (dat V c).Φ (Fin.last cfg0.N) ⊢ Pipeline.ΦA spec0 c := by
  rw [show (dat V c).Φ (Fin.last cfg0.N) = PhiS V c (Fin.last cfg0.N).val from rfl,
    PhiS_pos V c _ (by rw [Fin.val_last, show cfg0.N = 25 from N_0]; exact Nat.succ_ne_zero _), PhiA_eq]
  iintro ⟨⟨HS, Hoth⟩, Hg⟩
  isplitl [HS Hoth]
  · isplitl [HS]
    · iexists _; iexact HS
    iexact Hoth
  iexact Hg

end Cert.KernelIdeal.PassA

end
-- ==== Proof.PassB.lean ====
/-
  The second pass as a pipeline region: the frame of one grid point and the region's proof data.

  The region has three windows over a grid of 25 points: the whole `[10000, 40]` array `s2` (fetched once), the
  block of 400 rows of the propagation matrix at the point, and the block of 400 rows of the result, written back at
  every point. At a point the body reads the two input blocks and stores one value over the whole output block, so
  after the body the output's staging buffer holds that value of the two blocks (`outB`) and the inputs' buffers are
  as they were. Nothing is carried from point to point: the invariant is the class's (the scoped buffers no window
  stages at anything, the generator register at some state).

  Everything is stated at a parameter `V`, the unscoped buffers' contents when the region is entered, and for any
  float instance.
-/
import proofs.«135058_g16509854286320_cont_7to1_1500_2_alg».proof.Proof.Gen.KernelIdeal.Launch
import proofs.«135058_g16509854286320_cont_7to1_1500_2_alg».proof.Proof.Gen.KernelIdeal.Skeleton
import proofs.«135058_g16509854286320_cont_7to1_1500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole buffer -/

abbrev rS : Rect S10000x40 := Rect.unit (s := S10000x40) ![0, 0] S10000x40.size inb_S10000x40_S10000x40_0_0
abbrev rA : Rect S400x10000 := Rect.unit (s := S400x10000) ![0, 0] S400x10000.size inb_S400x10000_S400x10000_0_0
abbrev rO : Rect S400x40 := Rect.unit (s := S400x40) ![0, 0] S400x40.size inb_S400x40_S400x40_0_0

/-- The output's staging buffer after the body, from the two input blocks: its one store as a piece. -/
def outB (x0 : Vec F S10000x40 .f32) (x1 : Vec F S400x10000 .f32) : Vec F S400x40 .f32 :=
  View.canon [⟨rO, k1_pay1 (View.ld x1 rA) (View.ld x0 rS)⟩]

/-- The one store covers the buffer. -/
theorem coverB (p0 : Vec F S400x40 .f32) (y : S400x40.Idx) :
    ∃ pc ∈ ([⟨rO, p0⟩] : List (View.Piece (Elt F) S400x40 .f32)), y ∈ pc.1.set :=
  View.cover_of_tiled [⟨rO, p0⟩] S400x40.size (by rfl) y

/-! ## The body's triple -/

set_option maxHeartbeats 1000000 in
/-- The body on whole staging memrefs, the inputs' at contents `x0`, `x1` and the output's at anything, runs to the
    continuation holding the inputs' as they were and the output's at `outB x0 x1`. -/
theorem sound_kernel (c : Dev nD) (E : Set ℕ) (i : grid1.Coords)
    (arg1 : Memref sig .tc .vmem S10000x40 .f32) (harg1 : arg1.IsWhole) (arg2 : Memref sig .tc .vmem S400x10000 .f32) (harg2 : arg2.IsWhole)
    (arg3 : Memref sig .tc .vmem S400x40 .f32) (harg3 : arg3.IsWhole)
    (x0 : Vec F S10000x40 .f32) (x1 : Vec F S400x10000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outB x0 x1)) -∗ K ⟨⟩))
      ⊢ wp frame (wpE (defs₀ (F := F)) Variants.none c none) E (cc1__pass_b_kernel i arg1 harg1 arg2 harg2 arg3 harg3) K := by
  simp only [cc1__pass_b_kernel_eq_skeleton]; unfold cc1__pass_b_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverB _)

/-! ## The region's proof data -/

/-- The proof data on core `c`: the arrays as the region finds them; after the body at point `t` each input's
    buffer at its block and the output's at `outB` of the input blocks; the class's invariant; nothing owed; full
    shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outB (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outB (iblk V c 0 t) (iblk V c 1 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat V c).Φ 0 := by
  rw [show (dat V c).Φ 0 = Pipeline.ΦA spec1 c from rfl]

/-- and the invariant after the last point gives it back. -/
theorem hout (c : Dev nD) : (dat V c).Φ (Fin.last cfg1.N) ⊢ Pipeline.ΦA spec1 c := by
  rw [show (dat V c).Φ (Fin.last cfg1.N) = Pipeline.ΦA spec1 c from rfl]

end Cert.KernelIdeal.PassB

end
-- ==== Proof.Run.lean ====
/-
  The whole program as two pipeline regions, run from the launch to the return.

  @main is the first pass's region followed by the second's, with no host operation between them. The unscoped
  buffers hold the launch memory when the first region is entered (`W0`); when it is left its windows' arrays hold
  what its write-backs leave and every other buffer what it held (`W1`); the second region is entered from that and
  left the same way (`W2`). Each region's proof data is taken at its entry contents, each region is a segment
  record over the thread state "every unscoped buffer at the boundary's contents, the generator register at some
  state, nothing owed", and the run ends with every unscoped buffer at `W2` (`run_all`).

  Read at an argument array `W2` walks back to the launch memory: no region writes an argument. Read at the result
  it is what the second region's write-backs leave, and the array between the passes what the first region's leave.

  For any float instance.
-/
import proofs.«135058_g16509854286320_cont_7to1_1500_2_alg».proof.Proof.Gen.KernelIdeal.Launch
import proofs.«135058_g16509854286320_cont_7to1_1500_2_alg».proof.Proof.Gen.KernelIdeal.Skeleton
import proofs.«135058_g16509854286320_cont_7to1_1500_2_alg».proof.Proof.Gen.KernelIdeal.Points
import proofs.«135058_g16509854286320_cont_7to1_1500_2_alg».proof.Proof.PassA
import proofs.«135058_g16509854286320_cont_7to1_1500_2_alg».proof.Proof.PassB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (PassA.dat (V0 m ρ) c).arrAt w cfg0.N
theorem W1_arr (c : Dev nD) (w : Fin cfg0.W) :
    W1 m ρ c (Proc.devRef .tc (Pipeline.arrRef spec0 w)) = (PassA.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (PassA.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit, likewise. -/
def W2 (c : Dev nD) : Valuation τ sig (Elt F) :=
  Pipeline.withArrays spec1 c (W1 m ρ c) fun w => (PassB.dat (V1 m ρ) c).arrAt w cfg1.N
theorem W2_arr (c : Dev nD) (w : Fin cfg1.W) :
    W2 m ρ c (Proc.devRef .tc (Pipeline.arrRef spec1 w)) = (PassB.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (PassB.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the arrays the passes write -/

/-- `x`: the first region reads it through an input window, the second bypasses it. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((PassA.dat (V0 m ρ) c).arrAt_in 0 rfl _).trans (PassA.A_eq (V0 m ρ) c 0))
    _ = m ((c : Thread nD τ).loc main_arg0) := rfl

/-- The propagation matrix: both regions read it through an input window. -/
theorem W1_main_arg1 (c : Dev nD) : W1 m ρ c (Proc.devRef .tc main_arg1) = m ((c : Thread nD τ).loc main_arg1) :=
  (W1_arr m ρ c 3).trans (((PassA.dat (V0 m ρ) c).arrAt_in 3 rfl _).trans (PassA.A_eq (V0 m ρ) c 3))
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((PassB.dat (V1 m ρ) c).arrAt_in 1 rfl _).trans (PassB.A_eq (V1 m ρ) c 1))
    _ = m ((c : Thread nD τ).loc main_arg1) := W1_main_arg1 m ρ c

/-- `w1`. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((PassA.dat (V0 m ρ) c).arrAt_in 1 rfl _).trans (PassA.A_eq (V0 m ρ) c 1))
    _ = m ((c : Thread nD τ).loc main_arg2) := rfl

/-- `w2`. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((PassA.dat (V0 m ρ) c).arrAt_in 2 rfl _).trans (PassA.A_eq (V0 m ρ) c 2))
    _ = m ((c : Thread nD τ).loc main_arg3) := rfl

/-- The array between the passes is what the first region's write-backs leave. -/
theorem W1_between (c : Dev nD) : W1 m ρ c (Proc.devRef .tc main_call0_v0) = (PassA.dat (V0 m ρ) c).arrAt 4 cfg0.N :=
  W1_arr m ρ c 4

/-- The result is what the second region's write-backs leave. -/
theorem W2_result (c : Dev nD) : W2 m ρ c (Proc.devRef .tc main_v0) = (PassB.dat (V1 m ρ) c).arrAt 2 cfg1.N :=
  W2_arr m ρ c 2

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => PassA.dat (V0 m ρ) c
  | ⟨1, _⟩ => fun c => PassB.dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (PassA.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (PassA.dat (V0 m ρ) c).Φ 0 from rfl]
    iintro ⟨Hp, -, Hr⟩
    iapply (PassA.hin (V0 m ρ) c)
    unfold Pipeline.ΦA
    isplitl [Hr]; · iexact Hr
    iexact Hp
  hout c := by
    rw [Pipeline.ownSems0_none, show (pdats m ρ 0 c).Φ (Fin.last _) = (PassA.dat (V0 m ρ) c).Φ (Fin.last cfg0.N) from rfl]
    iintro HP
    ihave H := (PassA.hout (V0 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (PassB.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (PassB.dat (V1 m ρ) c).Φ 0 from rfl]
    iintro ⟨Hp, -, Hr⟩
    iapply (PassB.hin (V1 m ρ) c)
    unfold Pipeline.ΦA
    isplitl [Hr]; · iexact Hr
    iexact Hp
  hout c := by
    rw [Pipeline.ownSems0_none, show (pdats m ρ 1 c).Φ (Fin.last _) = (PassB.dat (V1 m ρ) c).Φ (Fin.last cfg1.N) from rfl]
    iintro HP
    ihave H := (PassB.hout (V1 m ρ) c) $$ HP
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters every weakly fair execution of @main terminates, nothing faulting, and every
    final state has every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Run

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«135058_g16509854286320_cont_7to1_1500_2_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«135058_g16509854286320_cont_7to1_1500_2_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibPropagationChain.lean ====
/-
  Three dense layers over one square propagation matrix, as plain functions of matrices of extended reals, in the two
  orders a program may multiply them, and the row-wise log-softmax in its two spellings.

  A propagation layer takes the node features `H : [n, K]`, a weight matrix `W : [K, N]`, a bias and the square
  matrix `A : [n, n]`, and returns `A · H · W + b`. The triple product can be bracketed `(A · H) · W` or
  `A · (H · W)`. On the extended reals multiplication does not distribute over addition at the infinities, so the two
  bracketings are proved equal only where every entry is a real number (`prodRow_assoc`): there both are the double
  sum `∑ₖ ∑ⱼ A (r, j) · H (j, k) · W (k, q)`, summed in either order. Real-valuedness is kept by sums, products,
  the maximum with a real and so by every layer (`IsReal.*`).

  The log-softmax of a row `z` is `z q − top − log ∑ⱼ exp (z j − top)` with `top` the row's maximum. One spelling
  subtracts `top + log ∑ …` at once, the other subtracts `top` and then the logarithm. For a real `z q` and a real
  `top` the two agree whatever the logarithm's value, since negation distributes over a sum with a real summand and
  addition is associative (`sub_add_eq_sub_sub_real`). The maximum of a non-empty real row, folded from `-∞`, is real
  (`rowFold_real`), and one more maximum against `-∞` changes nothing (`rowTop_eq_rowFold`).

  All are generic in the extents.
-/
import proofs.«135058_g16509854286320_cont_7to1_1500_2_alg».proof.Proof.LibBiasLayer

noncomputable section

namespace Cert.PropagationChain

open Idealize.ShloMosaic Idealize.ShloMosaic.ValueIdx Cert.DenseLayer Cert.BiasLayer

/-! ## Real-valued families -/

/-- Every entry is a real number (neither infinity). -/
def IsReal {ι : Type} (f : ι → EReal) : Prop := ∀ i, ∃ r : ℝ, f i = (r : EReal)

/-- The coercion of a finite real sum is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of reals is real. -/
theorem sum_real {ι : Type} (s : Finset ι) (f : ι → EReal) (hf : ∀ k, ∃ r : ℝ, f k = (r : EReal)) :
    ∃ r : ℝ, ∑ k ∈ s, f k = (r : EReal) := by
  choose g hg using hf
  exact ⟨∑ k ∈ s, g k, by rw [coe_sum]; exact Finset.sum_congr rfl fun k _ => hg k⟩

/-- A product of two reals is real. -/
theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

/-- A sum of two reals is real. -/
theorem add_real {x y : EReal} (hx : ∃ r : ℝ, x = (r : EReal)) (hy : ∃ r : ℝ, y = (r : EReal)) : ∃ r : ℝ, x + y = (r : EReal) := by
  obtain ⟨a, rfl⟩ := hx; obtain ⟨b, rfl⟩ := hy
  exact ⟨a + b, (EReal.coe_add a b).symm⟩

/-- The maximum of two reals is real. -/
theorem max_real {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total (a : EReal) (b : EReal) with h | h
  · exact ⟨b, max_eq_right h⟩
  · exact ⟨a, max_eq_left h⟩

/-- The word of `+0.0` denotes the real zero. -/
theorem zero_word_real : ∃ r : ℝ, Ideal.ofBits .f32 0x00000000#32 = (r : EReal) := ⟨0, by rw [Ideal.ofBits_zero_f32]; rfl⟩

/-! ## The whole product and its layers -/

variable {n J K N : ℕ}

/-- The product matrix `x · y`. -/
def mm (x : Mat n J) (y : Mat J K) : Mat n K := fun i => prodRow x y (i 0) (i 1)

theorem mm_apply (x : Mat n J) (y : Mat J K) (r : Fin n) (k : Fin K) : mm x y (ix2 r k) = prodRow x y r k := rfl

theorem prodRow_real {x : Mat n J} {y : Mat J K} (hx : IsReal x) (hy : IsReal y) (r : Fin n) (k : Fin K) :
    ∃ v : ℝ, prodRow x y r k = (v : EReal) :=
  sum_real _ _ fun j => mul_real (hx _) (hy _)

theorem IsReal.mm {x : Mat n J} {y : Mat J K} (hx : IsReal x) (hy : IsReal y) : IsReal (mm x y) :=
  fun i => prodRow_real hx hy (i 0) (i 1)

theorem IsReal.affine {x : Mat n J} {y : Mat J K} {b : Row K} (hx : IsReal x) (hy : IsReal y) (hb : IsReal b) :
    IsReal (affine x y b) :=
  fun i => add_real (prodRow_real hx hy (i 0) (i 1)) (hb _)

theorem IsReal.reluAffine {x : Mat n J} {y : Mat J K} {b : Row K} (hx : IsReal x) (hy : IsReal y) (hb : IsReal b) :
    IsReal (reluAffine x y b) :=
  fun i => max_real (IsReal.affine hx hy hb i) zero_word_real

/-- The two bracketings of a triple product of real matrices agree entry by entry: both are the double sum over the
    two contracted axes, taken in either order. -/
theorem prodRow_assoc (x : Mat n J) (y : Mat J K) (w : Mat K N) (hx : IsReal x) (hy : IsReal y) (hw : IsReal w)
    (r : Fin n) (q : Fin N) : prodRow (mm x y) w r q = prodRow x (mm y w) r q := by
  choose gx hgx using hx
  choose gy hgy using hy
  choose gw hgw using hw
  have hL : prodRow (mm x y) w r q
      = ((∑ k : Fin K, (∑ j : Fin J, gx (ix2 r j) * gy (ix2 j k)) * gw (ix2 k q) : ℝ) : EReal) := by
    show ∑ k : Fin K, (∑ j : Fin J, x (ix2 r j) * y (ix2 j k)) * w (ix2 k q) = _
    rw [coe_sum]
    refine Finset.sum_congr rfl fun k _ => ?_
    rw [EReal.coe_mul, coe_sum, hgw]
    refine congrArg (· * (gw (ix2 k q) : EReal)) (Finset.sum_congr rfl fun j _ => ?_)
    rw [EReal.coe_mul, hgx, hgy]
  have hR : prodRow x (mm y w) r q
      = ((∑ j : Fin J, gx (ix2 r j) * (∑ k : Fin K, gy (ix2 j k) * gw (ix2 k q)) : ℝ) : EReal) := by
    show ∑ j : Fin J, x (ix2 r j) * (∑ k : Fin K, y (ix2 j k) * w (ix2 k q)) = _
    rw [coe_sum]
    refine Finset.sum_congr rfl fun j _ => ?_
    rw [EReal.coe_mul, coe_sum, hgx]
    refine congrArg ((gx (ix2 r j) : EReal) * ·) (Finset.sum_congr rfl fun k _ => ?_)
    rw [EReal.coe_mul, hgy, hgw]
  rw [hL, hR]
  congr 1
  simp only [Finset.sum_mul, Finset.mul_sum]
  rw [Finset.sum_comm]
  exact Finset.sum_congr rfl fun j _ => Finset.sum_congr rfl fun k _ => mul_assoc _ _ _

/-- A propagation layer in either bracketing, over real matrices, is one matrix. -/
theorem reluAffine_assoc (x : Mat n J) (y : Mat J K) (w : Mat K N) (b : Row N) (hx : IsReal x) (hy : IsReal y)
    (hw : IsReal w) : reluAffine (mm x y) w b = reluAffine x (mm y w) b :=
  funext fun i =>
    congrArg (fun v : EReal => max (v + b (ix1 (i 1))) (Ideal.ofBits .f32 0x00000000#32))
      (prodRow_assoc x y w hx hy hw (i 0) (i 1))

/-! ## The row log-softmax -/

/-- The word of `-∞` denotes the bottom element. -/
theorem neg_inf_word : Ideal.ofBits .f32 0xFF800000#32 = (⊥ : EReal) := by simp [Ideal.ofBits, Ideal.ieee]

/-- The maximum of a row folded from `-∞` (the word a program writes). -/
def rowFold (z : Fin N → EReal) : EReal := Finset.univ.fold max (Ideal.ofBits .f32 0xFF800000#32) z

/-- One more maximum against `-∞` changes nothing. -/
theorem rowTop_eq_rowFold (z : Fin N → EReal) : rowTop z = rowFold z := by
  unfold rowTop rowFold
  rw [neg_inf_word]
  exact max_eq_right bot_le

/-- The maximum of real entries over a non-empty finite set, folded from `-∞`, is real. -/
theorem fold_max_real {ι : Type} (s : Finset ι) (hs : s.Nonempty) (f : ι → EReal) (hf : ∀ k, ∃ r : ℝ, f k = (r : EReal)) :
    ∃ r : ℝ, s.fold max (⊥ : EReal) f = (r : EReal) := by
  classical
  induction hs using Finset.Nonempty.cons_induction with
  | singleton a =>
    obtain ⟨v, hv⟩ := hf a
    exact ⟨v, by rw [Finset.fold_singleton, hv]; exact max_eq_left bot_le⟩
  | cons a s ha hs ih =>
    obtain ⟨v, hv⟩ := ih
    rw [Finset.fold_cons, hv]
    exact max_real (hf a) ⟨v, rfl⟩

theorem rowFold_real (hN : 0 < N) (z : Fin N → EReal) (hz : ∀ k, ∃ r : ℝ, z k = (r : EReal)) : ∃ r : ℝ, rowFold z = (r : EReal) := by
  unfold rowFold
  rw [neg_inf_word]
  exact fold_max_real _ ⟨⟨0, hN⟩, Finset.mem_univ _⟩ z hz

/-- For real `x` and `t` and any `l`: `x − (t + l) = (x − t) − l`. -/
theorem sub_add_eq_sub_sub_real (x t : ℝ) (l : EReal) : (x : EReal) - ((t : EReal) + l) = ((x : EReal) - (t : EReal)) - l := by
  rw [sub_eq_add_neg, sub_eq_add_neg, sub_eq_add_neg,
    EReal.neg_add (Or.inl (EReal.coe_ne_bot t)) (Or.inl (EReal.coe_ne_top t)), sub_eq_add_neg, add_assoc]

/-- The log-softmax of a row, the maximum and the logarithm subtracted together. -/
def logSoftmaxJoint (z : Fin N → EReal) (q : Fin N) : EReal :=
  z q - (rowFold z + Ideal.log (∑ j : Fin N, Ideal.exp (z j - rowFold z)))

/-- The log-softmax of a row, the maximum subtracted first and the logarithm (of the sum taken from the zero word)
    after. -/
def logSoftmaxShifted (z : Fin N → EReal) (q : Fin N) : EReal :=
  (z q - rowTop z) - Ideal.log (Ideal.ofBits .f32 0x00000000#32 + ∑ j : Fin N, Ideal.exp (z j - rowTop z))

/-- On a non-empty real row the two spellings agree. -/
theorem logSoftmax_spellings (hN : 0 < N) (z : Fin N → EReal) (hz : ∀ k, ∃ r : ℝ, z k = (r : EReal)) (q : Fin N) :
    logSoftmaxJoint z q = logSoftmaxShifted z q := by
  unfold logSoftmaxJoint logSoftmaxShifted
  rw [rowTop_eq_rowFold, Ideal.ofBits_zero_f32, zero_add]
  obtain ⟨t, ht⟩ := rowFold_real hN z hz
  obtain ⟨x, hx⟩ := hz q
  rw [ht, hx]
  exact sub_add_eq_sub_sub_real x t _

/-! ## The network in its two orders -/

/-- A bias stored as a one-row matrix, read as a row. -/
def rowOf (b : Mat 1 N) : Row N := fun j => b (ix2 (0 : Fin 1) (j 0))

theorem rowOf_apply (b : Mat 1 N) (q : Fin N) : rowOf b (ix1 q) = b (ix2 (0 : Fin 1) q) := rfl

/-- First layer, the propagation product taken first: `relu ((A · X) · W + b)`. -/
def layerFirst (A : Mat n n) (X : Mat n J) (W : Mat J K) (b : Mat 1 K) : Mat n K := reluAffine (mm A X) W (rowOf b)

/-- Second layer fused with the projection: `relu ((A · H) · W + b) · C`. -/
def layerProject (A : Mat n n) (H : Mat n J) (W : Mat J K) (b : Mat 1 K) (C : Mat K N) : Mat n N :=
  mm (reluAffine (mm A H) W (rowOf b)) C

/-- Last layer: the row log-softmax of `A · Z + b`, maximum and logarithm subtracted together. -/
def layerLogSoftmax (A : Mat n n) (Z : Mat n N) (b : Mat 1 N) : Mat n N :=
  fun i => logSoftmaxJoint (fun k => affine A Z (rowOf b) (ix2 (i 0) k)) (i 1)

/-- The reference network: each layer `relu (A · (H · W) + b)`, then `A · (H · C) + c` and the row log-softmax with
    the maximum subtracted first. -/
def reference (A : Mat n n) (X : Mat n J) (W0 : Mat J K) (b0 : Row K) (W1 : Mat K K) (b1 : Row K) (C : Mat K N) (c : Row N) : Mat n N :=
  fun i => logSoftmaxShifted
    (fun k => affine A (mm (reluAffine A (mm (reluAffine A (mm X W0) b0) W1) b1) C) c (ix2 (i 0) k)) (i 1)

/-- On real inputs the three fused layers compute the reference network. -/
theorem layers_eq_reference (hN : 0 < N) (A : Mat n n) (X : Mat n J) (W0 : Mat J K) (b0 : Mat 1 K) (W1 : Mat K K) (b1 : Mat 1 K)
    (C : Mat K N) (c : Mat 1 N) (hA : IsReal A) (hX : IsReal X) (hW0 : IsReal W0) (hb0 : IsReal b0) (hW1 : IsReal W1)
    (hb1 : IsReal b1) (hC : IsReal C) (hc : IsReal c) :
    layerLogSoftmax A (layerProject A (layerFirst A X W0 b0) W1 b1 C) c
      = reference A X W0 (rowOf b0) W1 (rowOf b1) C (rowOf c) := by
  have hb0' : IsReal (rowOf b0) := fun j => hb0 _
  have hb1' : IsReal (rowOf b1) := fun j => hb1 _
  have hc' : IsReal (rowOf c) := fun j => hc _
  have e1 : layerFirst A X W0 b0 = reluAffine A (mm X W0) (rowOf b0) := reluAffine_assoc A X W0 _ hA hX hW0
  have h1 : IsReal (reluAffine A (mm X W0) (rowOf b0)) := IsReal.reluAffine hA (IsReal.mm hX hW0) hb0'
  have e2 : reluAffine (mm A (reluAffine A (mm X W0) (rowOf b0))) W1 (rowOf b1)
      = reluAffine A (mm (reluAffine A (mm X W0) (rowOf b0)) W1) (rowOf b1) := reluAffine_assoc A _ W1 _ hA h1 hW1
  have h2 : IsReal (reluAffine A (mm (reluAffine A (mm X W0) (rowOf b0)) W1) (rowOf b1)) :=
    IsReal.reluAffine hA (IsReal.mm h1 hW1) hb1'
  funext i
  unfold layerLogSoftmax layerProject reference
  rw [e1, e2]
  exact logSoftmax_spellings hN _ (fun k => IsReal.affine hA (IsReal.mm h2 hC) hc' _) (i 1)

end Cert.PropagationChain

end
-- ==== Proof.LibRowLogSoftmax.lean ====
/-
  A vector program's row log-softmax, read at an index.

  Over an `[a, b]` matrix `z` of extended reals a vector program takes the row maxima by a reduction from `-∞`, sets
  them as a column `[a, 1]`, lays the column over the `b` columns, subtracts and exponentiates; it sums the
  exponentials along each row, sets the sums as a column, takes the logarithm, adds the column of maxima, lays the
  result over the columns and subtracts it from `z`. At `(p, q)` every laid-out column reads its entry of row `p`,
  the maximum is the fold of `max` over row `p` and the sum is the sum over row `p`, so the whole program at
  `(p, q)` is `logSoftmaxJoint` of row `p` at `q`.

  Generic in the extents.
-/
import proofs.«135058_g16509854286320_cont_7to1_1500_2_alg».proof.Proof.LibPropagationChain

noncomputable section

namespace Cert.PropagationChain

open Idealize.ShloMosaic Idealize.ShloMosaic.ValueIdx Cert.DenseLayer Cert.ColumnLayout

section VectorLogSoftmax

variable {a b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima, reduced from `-∞`, as a column. -/
def topCol : FVec Ideal ⟨2, ![a, 1]⟩ .f32 :=
  shapeCast ⟨2, ![a, 1]⟩ (multiReduction .maximumf [1] ⟨1, ![a]⟩ z 0xFF800000#32 hr hφ hmax) hc

/-- Its entry of row `p` is the maximum of row `p`. -/
theorem topCol_apply (p : Fin a) (u : Fin 1) : topCol z hr hc hφ hmax (ix2 p u) = rowFold (fun k => z (ix2 p k)) :=
  (shapeCast_a_a1_apply _ hc p u).trans (multiReduction_max_rows_apply z _ hr hφ hmax p)

/-- The exponentials of the entries minus their row's maximum. -/
def shiftedExp : FVec Ideal ⟨2, ![a, b]⟩ .f32 :=
  exp (subf z (broadcastTo ⟨2, ![a, b]⟩ (topCol z hr hc hφ hmax) hb))

theorem shiftedExp_apply (p : Fin a) (q : Fin b) :
    shiftedExp z hr hc hb hφ hmax (ix2 p q) = Ideal.exp (z (ix2 p q) - rowFold (fun k => z (ix2 p k))) := by
  show Ideal.exp (z (ix2 p q) - broadcastTo ⟨2, ![a, b]⟩ (topCol z hr hc hφ hmax) hb (ix2 p q)) = _
  rw [broadcastTo_a1_ab_apply, topCol_apply]

/-- The whole row log-softmax of a vector program is `logSoftmaxJoint` of the row, entry by entry. -/
theorem vector_logSoftmax_apply (p : Fin a) (q : Fin b) :
    subf z (broadcastTo ⟨2, ![a, b]⟩
        (addf (topCol z hr hc hφ hmax)
          (log (shapeCast ⟨2, ![a, 1]⟩
            (multiReduction .add [1] ⟨1, ![a]⟩ (shiftedExp z hr hc hb hφ hmax) 0x00000000#32 hr hφ hadd) hc))) hb) (ix2 p q)
      = logSoftmaxJoint (fun k => z (ix2 p k)) q := by
  show z (ix2 p q) - broadcastTo ⟨2, ![a, b]⟩
        (addf (topCol z hr hc hφ hmax)
          (log (shapeCast ⟨2, ![a, 1]⟩
            (multiReduction .add [1] ⟨1, ![a]⟩ (shiftedExp z hr hc hb hφ hmax) 0x00000000#32 hr hφ hadd) hc))) hb (ix2 p q) = _
  rw [broadcastTo_a1_ab_apply]
  show z (ix2 p q) - (topCol z hr hc hφ hmax (ix2 p (0 : Fin 1))
      + Ideal.log (shapeCast ⟨2, ![a, 1]⟩
          (multiReduction .add [1] ⟨1, ![a]⟩ (shiftedExp z hr hc hb hφ hmax) 0x00000000#32 hr hφ hadd) hc (ix2 p (0 : Fin 1)))) = _
  rw [topCol_apply, shapeCast_a_a1_apply, multiReduction_add_rows_apply]
  unfold logSoftmaxJoint
  simp only [shiftedExp_apply]

end VectorLogSoftmax

end Cert.PropagationChain

end
-- ==== Proof.LibGcnTwoPass.lean ====
/-
  A two-layer graph convolution over a dense propagation matrix, as plain functions of matrices of extended reals.

  With node features `x : [n, J]`, weights `w1 : [J, K]` and `w2 : [K, N]` and the square matrix `A : [n, n]`:
  the first pass is `s2 = max (A · (x · w1), 0) · w2` and the second is the row-wise log-softmax of
  `max (A · s2, 0)`. The log-softmax of a row `z` at column `q` is `(z q − top) − log ∑ⱼ exp (z j − top)` with
  `top` the row's maximum folded from `-∞`.

  Every entry `(r, q)` of either pass depends on `A` only through its row `r`, so a block of rows of `A` gives the
  same rows of the result (`passA_rows`, `passB_rows`).

  A host program spells the log-softmax with one more maximum against `-∞` and with its sum taken from the zero
  word; both change nothing (`logSoftmaxShifted_eq`).

  All are generic in the extents.
-/
import proofs.«135058_g16509854286320_cont_7to1_1500_2_alg».proof.Proof.LibRowLogSoftmax

noncomputable section

namespace Cert.Gcn

open Idealize.ShloMosaic Idealize.ShloMosaic.ValueIdx Cert.DenseLayer Cert.PropagationChain

variable {n J K N : ℕ}

/-- The log-softmax of a row: the entry minus the row's maximum, minus the logarithm of the row's sum of the
    exponentials of the entries minus the maximum. -/
def logSoftmaxRow (z : Fin N → EReal) (q : Fin N) : EReal :=
  (z q - rowFold z) - Ideal.log (∑ j : Fin N, Ideal.exp (z j - rowFold z))

/-- A host program's spelling (one more maximum against `-∞`, the sum taken from the zero word) is the same number. -/
theorem logSoftmaxShifted_eq (z : Fin N → EReal) (q : Fin N) : logSoftmaxShifted z q = logSoftmaxRow z q := by
  unfold logSoftmaxShifted logSoftmaxRow
  rw [rowTop_eq_rowFold, Ideal.ofBits_zero_f32, zero_add]

/-- The first pass: `max (A · (x · w1), 0) · w2`. -/
def passA (A : Mat n n) (x : Mat n J) (w1 : Mat J K) (w2 : Mat K N) : Mat n N :=
  mm (reluLayer A (mm x w1)) w2

/-- The second pass: the row log-softmax of `max (A · s, 0)`. -/
def passB (A : Mat n n) (s : Mat n N) : Mat n N :=
  fun i => logSoftmaxRow (fun k => reluLayer A s (ix2 (i 0) k)) (i 1)

/-- The whole network. -/
def gcn (A : Mat n n) (x : Mat n J) (w1 : Mat J K) (w2 : Mat K N) : Mat n N :=
  passB A (passA A x w1 w2)

theorem passA_apply (A : Mat n n) (x : Mat n J) (w1 : Mat J K) (w2 : Mat K N) (r : Fin n) (q : Fin N) :
    passA A x w1 w2 (ix2 r q) = prodRow (reluLayer A (mm x w1)) w2 r q := rfl

theorem passB_apply (A : Mat n n) (s : Mat n N) (r : Fin n) (q : Fin N) :
    passB A s (ix2 r q) = logSoftmaxRow (fun k => reluLayer A s (ix2 r k)) q := rfl

/-- Row `r` of `max (A · s, 0)` is read off any matrix `B` (of any height) whose row `p` is row `r` of `A`. -/
theorem reluLayer_rows {a : ℕ} (A : Mat n n) (B : Mat a n) (s : Mat n K) (r : Fin n) (p : Fin a)
    (h : ∀ j, B (ix2 p j) = A (ix2 r j)) (k : Fin K) : reluLayer B s (ix2 p k) = reluLayer A s (ix2 r k) := by
  rw [reluLayer_apply, reluLayer_apply, prodRow_congr B A s p r h]

/-- The first pass on a block of rows of `A`. -/
theorem passA_rows {a : ℕ} (A : Mat n n) (B : Mat a n) (s1 : Mat n K) (w2 : Mat K N) (r : Fin n) (p : Fin a)
    (h : ∀ j, B (ix2 p j) = A (ix2 r j)) (q : Fin N) :
    prodRow (reluLayer B s1) w2 p q = prodRow (reluLayer A s1) w2 r q :=
  congrFun (prodRow_congr (reluLayer B s1) (reluLayer A s1) w2 p r fun k => reluLayer_rows A B s1 r p h k) q

/-- The second pass on a block of rows of `A`. -/
theorem passB_rows {a : ℕ} (A : Mat n n) (B : Mat a n) (s : Mat n N) (r : Fin n) (p : Fin a)
    (h : ∀ j, B (ix2 p j) = A (ix2 r j)) (q : Fin N) :
    logSoftmaxRow (fun k => reluLayer B s (ix2 p k)) q = logSoftmaxRow (fun k => reluLayer A s (ix2 r k)) q := by
  rw [show (fun k => reluLayer B s (ix2 p k)) = fun k => reluLayer A s (ix2 r k) from
    funext fun k => reluLayer_rows A B s r p h k]

end Cert.Gcn

end
-- ==== Proof.Payloads.lean ====
/-
  The three values the kernels store, read at an index at the ideal instance.

  Each of the four products contracts the second axis of its left operand with the first axis of its right one, so
  read at `(row, column)` it is the sum over `k` of `left (row, k) · right (k, column)`. A product clamped from below
  by a splat of zero is the clamped layer entry by entry, and the row log-softmax in its shifted spelling — the
  entries minus the row maxima, minus the logarithm of the row sums of the exponentials of those differences — is the
  log-softmax of the row, because each column laid over the row's entries reads its entry of that row.
-/
import proofs.«135058_g16509854286320_cont_7to1_1500_2_alg».proof.Proof.Gen.KernelIdeal.Skeleton
import proofs.«135058_g16509854286320_cont_7to1_1500_2_alg».proof.Proof.LibGcnTwoPass

noncomputable section

namespace Cert.KernelIdeal.Payloads

open Idealize.ShloMosaic Idealize.ShloMosaic.ValueIdx
open Cert.KernelIdeal Cert.KernelIdeal.Gen Cert.ColumnLayout Cert.DenseLayer Cert.PropagationChain Cert.Gcn

/-! ## Dimension numbers of a plain product -/

/-- Dimension numbers given by the six axis lists `[1] [0] [0] [1] [] []` contract the second axis of the left
    operand with the first axis of the right one: the left operand is read at `(row, k)`, the right at `(k, column)`. -/
theorem plainDot_of_lists {a K N : ℕ}
    (w : DotDims.WF ⟨2, ![a, K]⟩ ⟨2, ![K, N]⟩ ⟨2, ![a, N]⟩ [1] [0] [0] [1] [] []) :
    PlainDot (⟨[1], [0], [0], [1], [], [], w⟩ : DotDims ⟨2, ![a, K]⟩ ⟨2, ![K, N]⟩ ⟨2, ![a, N]⟩) where
  rank := rfl
  size := rfl
  lhs0 := fun i q => by simp [DotDims.lhsIdx]; rfl
  lhs1 := fun i q => DotDims.lhsIdx_val_of_single _ rfl i q
  rhs0 := fun i q => DotDims.rhsIdx_val_of_single _ rfl i q
  rhs1 := fun i q => by simp [DotDims.rhsIdx]; rfl

/-- The four products of the two passes are plain products. -/
theorem plainDot_x_w1 : PlainDot dot_S10000x128_S128x128_S10000x128_1_0_0_1_n_n := plainDot_of_lists _
theorem plainDot_blk_s1 : PlainDot dot_S400x10000_S10000x128_S400x128_1_0_0_1_n_n := plainDot_of_lists _
theorem plainDot_h_w2 : PlainDot dot_S400x128_S128x40_S400x40_1_0_0_1_n_n := plainDot_of_lists _
theorem plainDot_blk_s2 : PlainDot dot_S400x10000_S10000x40_S400x40_1_0_0_1_n_n := plainDot_of_lists _

/-! ## A product clamped at zero, and the shifted row log-softmax, read at an index -/

/-- A product into the zero accumulator, clamped from below by a splat of the zero word, is `reluLayer` entry by
    entry. -/
theorem relu_matmul_apply {a K N : ℕ} {d : DotDims ⟨2, ![a, K]⟩ ⟨2, ![K, N]⟩ ⟨2, ![a, N]⟩} (hd : PlainDot d)
    (x : FVec Ideal ⟨2, ![a, K]⟩ .f32) (w : FVec Ideal ⟨2, ![K, N]⟩ .f32) (i : (⟨2, ![a, N]⟩ : Shape).Idx) :
    maximumf (FloatOps.matmul d none x w (constant ⟨2, ![a, N]⟩ .f32 0x00000000#32))
        (broadcast ⟨2, ![a, N]⟩ (Scalar.ofBits (F := Ideal) .f32 0x00000000#32)) i
      = reluLayer x w i := by
  show max (FloatOps.matmul d none x w (constant ⟨2, ![a, N]⟩ .f32 0x00000000#32) i) (Ideal.ofBits .f32 0x00000000#32)
      = max (prodRow x w (i 0) (i 1)) (Ideal.ofBits .f32 0x00000000#32)
  rw [matmul_zero_apply hd]

section ShiftedLogSoftmax

variable {a b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row log-softmax in the shifted spelling: the entries minus the laid-out row maxima, minus the laid-out
    logarithms of the row sums of the exponentials of those differences. At `(p, q)` both laid-out columns read
    their entry of row `p`, so the whole is `logSoftmaxRow` of row `p` at `q`. -/
theorem shifted_logSoftmax_apply (p : Fin a) (q : Fin b) :
    subf (subf z (broadcastTo ⟨2, ![a, b]⟩ (topCol z hr hc hφ hmax) hb))
        (broadcastTo ⟨2, ![a, b]⟩
          (log (shapeCast ⟨2, ![a, 1]⟩
            (multiReduction .add [1] ⟨1, ![a]⟩ (shiftedExp z hr hc hb hφ hmax) 0x00000000#32 hr hφ hadd) hc)) hb) (ix2 p q)
      = logSoftmaxRow (fun k => z (ix2 p k)) q := by
  show (z (ix2 p q) - broadcastTo ⟨2, ![a, b]⟩ (topCol z hr hc hφ hmax) hb (ix2 p q))
      - broadcastTo ⟨2, ![a, b]⟩
          (log (shapeCast ⟨2, ![a, 1]⟩
            (multiReduction .add [1] ⟨1, ![a]⟩ (shiftedExp z hr hc hb hφ hmax) 0x00000000#32 hr hφ hadd) hc)) hb (ix2 p q) = _
  rw [broadcastTo_a1_ab_apply, broadcastTo_a1_ab_apply, topCol_apply]
  show (z (ix2 p q) - rowFold (fun k => z (ix2 p k)))
      - Ideal.log (shapeCast ⟨2, ![a, 1]⟩
          (multiReduction .add [1] ⟨1, ![a]⟩ (shiftedExp z hr hc hb hφ hmax) 0x00000000#32 hr hφ hadd) hc (ix2 p (0 : Fin 1))) = _
  rw [shapeCast_a_a1_apply, multiReduction_add_rows_apply]
  unfold logSoftmaxRow
  simp only [shiftedExp_apply]

end ShiftedLogSoftmax

/-! ## The three stored values -/

/-- The first pass's scratch value at `(r, k)`: row `r` of `x · w1` at column `k`. -/
theorem pay1_apply (v11 : Vec Ideal S10000x128 .f32) (v12 : Vec Ideal S128x128 .f32) (r : Fin 10000) (k : Fin 128) :
    k0_pay1 (F := Ideal) v11 v12 (ix2 r k) = prodRow (a := 10000) (K := 128) (N := 128) v11 v12 r k := by
  unfold k0_pay1
  rw [shapeCast_self]
  exact matmul_zero_apply plainDot_x_w1 none v11 v12 (ix2 r k)

/-- The first pass's stored block at `(p, q)`: row `p` of `max (B · s, 0) · w2` at column `q`, with `B` the block of
    400 rows of the matrix and `s` the scratch. -/
theorem pay2_apply (v3 : Vec Ideal S400x10000 .f32) (v4 : Vec Ideal S10000x128 .f32) (v8 : Vec Ideal S128x40 .f32)
    (p : Fin 400) (q : Fin 40) :
    k0_pay2 (F := Ideal) v3 v4 v8 (ix2 p q)
      = prodRow (a := 400) (K := 128) (N := 40) (reluLayer (a := 400) (K := 10000) (N := 128) v3 v4) v8 p q := by
  unfold k0_pay2
  refine (matmul_zero_apply plainDot_h_w2 none _ v8 (ix2 p q)).trans ?_
  exact congrFun (prodRow_congr _ _ v8 p p fun k => relu_matmul_apply plainDot_blk_s1 v3 v4 (ix2 p k)) q

/-- The second pass's stored block at `(p, q)`: the log-softmax of row `p` of `max (B · s2, 0)` at column `q`. -/
theorem payB_apply (v0 : Vec Ideal S400x10000 .f32) (v1 : Vec Ideal S10000x40 .f32) (p : Fin 400) (q : Fin 40) :
    k1_pay1 (F := Ideal) v0 v1 (ix2 p q)
      = logSoftmaxRow (fun k : Fin 40 => reluLayer (a := 400) (K := 10000) (N := 40) v0 v1 (ix2 p k)) q := by
  unfold k1_pay1
  rw [shapeCast_self]
  refine (shifted_logSoftmax_apply (a := 400) (b := 40) _ reduces_S400x40_S400 shapeCasts_S400_S400x1
    broadcasts_S400x1_S400x40 (.inl rfl) rfl rfl p q).trans ?_
  exact congrArg (fun z : Fin 40 → EReal => logSoftmaxRow z q)
    (funext fun k => relu_matmul_apply plainDot_blk_s2 v0 v1 (ix2 p k))

end Cert.KernelIdeal.Payloads

end
-- ==== Proof.ValueA.lean ====
/-
  From blocks to the array, at the ideal instance: what the first pass's write-backs leave in the array between the passes.

  The windows of `x`, `w1` and `w2` sit at block (0, 0) at every point and their blocks are the whole arrays; the
  matrix's window and the output's sit at block (t, 0), blocks of 400 rows. So the scratch, stored once from the blocks
  of `x` and `w1`, is `x · w1`; and what point `t` stores at row `p` of its block is `max (B · (x · w1), 0) · w2` at row
  `p` of the block `B` of the matrix, which is the first pass at row `400 t + p` of the matrix, since an entry of the
  pass reads the matrix through its own row only. Every row `r` lies in the block of the point `r / 400`, so the
  array ends holding the first pass everywhere.
-/
import proofs.«135058_g16509854286320_cont_7to1_1500_2_alg».proof.Proof.PassA
import proofs.«135058_g16509854286320_cont_7to1_1500_2_alg».proof.Proof.Payloads
import Idealize.ShloMosaic.Lib.Pipeline.Value
import Idealize.ShloMosaic.Lib.ValueIdx

set_option maxRecDepth 16384

noncomputable section

namespace Cert.KernelIdeal.ValueA

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.DenseLayer Cert.PropagationChain Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the whole-array windows sit at block (0, 0) at every point, the matrix's
    window and the output's at block (t, 0). -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 25 := lt_of_lt_of_eq t.isLt N_0

theorem scr_eq (x0 : Vec Ideal S10000x128 .f32) (x1 : Vec Ideal S128x128 .f32) :
    PassA.scr x0 x1 = k0_pay1 (F := Ideal) x0 x1 := by
  unfold PassA.scr
  rw [View.canon_unit_zero zeros]
  simp only [View.ld_unit_zero (S := S10000x128) zeros, View.ld_unit_zero (S := S128x128) zeros]

/-- The block of `x` at any point is `x`. -/
theorem blockX (c : Dev nD) (t : Fin cfg0.N) (y : S10000x128.Idx) :
    PassA.iblk V c 0 t y = V c main_arg0 y := by
  obtain ⟨e0, e1, -⟩ := index_facts t
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of `w1` at any point is `w1`. -/
theorem blockW1 (c : Dev nD) (t : Fin cfg0.N) (y : S128x128.Idx) :
    PassA.iblk V c 1 t y = V c main_arg2 y := by
  obtain ⟨-, -, e0, e1, -⟩ := index_facts t
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of `w2` at any point is `w2`. -/
theorem blockW2 (c : Dev nD) (t : Fin cfg0.N) (y : S128x40.Idx) :
    PassA.iblk V c 2 t y = V c main_arg3 y := by
  obtain ⟨-, -, -, -, e0, e1, -⟩ := index_facts t
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 40 + 1 * (y 1).val = (y 1).val; omega

/-- Row `p` of the matrix's block at point `t` is row `400 t + p` of the matrix. -/
theorem blockA (c : Dev nD) (t : Fin cfg0.N) (p : Fin 400) (r : Fin 10000) (hr : r.val = 400 * t.val + p.val) (j : Fin 10000) :
    PassA.iblk V c 3 t (ix2 p j) = V c main_arg1 (ix2 r j) := by
  obtain ⟨-, -, -, -, -, -, e0, e1, -⟩ := index_facts t
  show V c main_arg1 (((cfg0.win 3).blk t).view.emb (ix2 p j)) = V c main_arg1 (ix2 r j)
  refine congrArg (V c main_arg1) (funext fun a => Fin.ext ?_)
  match a with
  | ⟨0, _⟩ => show win0_3.index t (0 : Fin 2) * 400 + 1 * p.val = r.val; omega
  | ⟨1, _⟩ => show win0_3.index t (1 : Fin 2) * 10000 + 1 * j.val = j.val; omega

/-- The scratch after every point is `x · w1`. -/
theorem S1_apply (c : Dev nD) (j : Fin 10000) (k : Fin 128) :
    PassA.S1 V c (ix2 j k) = prodRow (a := 10000) (K := 128) (N := 128) (V c main_arg0) (V c main_arg2) j k := by
  unfold PassA.S1
  rw [scr_eq, Payloads.pay1_apply]
  rw [show (PassA.iblk V c 0 PassA.first : Vec Ideal S10000x128 .f32) = V c main_arg0 from funext (blockX V c PassA.first),
    show (PassA.iblk V c 1 PassA.first : Vec Ideal S128x128 .f32) = V c main_arg2 from funext (blockW1 V c PassA.first)]

theorem S1_eq (c : Dev nD) :
    (PassA.S1 V c : Mat 10000 128) = mm (n := 10000) (J := 128) (K := 128) (V c main_arg0) (V c main_arg2) := by
  funext i
  rw [eq_ix2 i]
  exact S1_apply V c (i 0) (i 1)

/-- One stored entry, over variables: the stored value of a block `B` of rows of `A`, the scratch `x · w1` and `w2`,
    at row `p` of the block, is the first pass at the row `r` of `A` that `B`'s row `p` is. -/
theorem stored_entry (A : Mat 10000 10000) (x : Mat 10000 128) (w1 : Mat 128 128) (w2 : Mat 128 40)
    (B : Vec Ideal S400x10000 .f32) (s : Vec Ideal S10000x128 .f32) (w2b : Vec Ideal S128x40 .f32)
    (hs : s = mm (n := 10000) (J := 128) (K := 128) x w1) (hw : w2b = w2) (r : Fin 10000) (p : Fin 400) (q : Fin 40)
    (hB : ∀ j, B (ix2 p j) = A (ix2 r j)) :
    k0_pay2 (F := Ideal) B s w2b (ix2 p q) = passA (n := 10000) (J := 128) (K := 128) (N := 40) A x w1 w2 (ix2 r q) := by
  subst hs hw
  rw [Payloads.pay2_apply, passA_apply]
  exact passA_rows A B (mm x w1) w2b r p hB q

/-- What point `t` writes back is block `t` of the first pass of the arrays the region was entered with. -/
theorem flushed_eq (c : Dev nD) (t : Fin cfg0.N) :
    (PassA.dat (F := Ideal) V c).flushed 4 t
      = ((cfg0.win 4).blk t).view.read (Elt Ideal)
          (passA (n := 10000) (J := 128) (K := 128) (N := 40) (V c main_arg1) (V c main_arg0) (V c main_arg2) (V c main_arg3)) := by
  show (cfg0.win 4).cut (grid0.coords t) ((PassA.dat (F := Ideal) V c).after 4 t) = _
  rw [PassA.after_4]
  unfold PassA.outA
  rw [View.canon_unit_zero zeros]
  simp only [View.ld_unit_zero (S := S400x10000) zeros, View.ld_unit_zero (S := S10000x128) zeros, View.ld_unit_zero (S := S128x40) zeros]
  funext y
  have hy0 : (y 0).val < 400 := (y 0).isLt
  have hy1 : (y 1).val < 40 := (y 1).isLt
  have ht := point_lt t
  obtain ⟨-, -, -, -, -, -, -, -, e0, e1⟩ := index_facts t
  -- the index inside the block and the index of the array under it, by coordinates
  have hin : (cfg0.win 4).xinj (grid0.coords t) y = ix2 (⟨(y 0).val, hy0⟩ : Fin 400) (⟨(y 1).val, hy1⟩ : Fin 40) :=
    funext fun a => Fin.ext (match a with | ⟨0, _⟩ => rfl | ⟨1, _⟩ => rfl)
  have hout : ((cfg0.win 4).blk t).view.emb y
      = ix2 (⟨400 * t.val + (y 0).val, by omega⟩ : Fin 10000) (⟨(y 1).val, hy1⟩ : Fin 40) := by
    funext a; apply Fin.ext
    match a with
    | ⟨0, _⟩ => show win0_4.index t (0 : Fin 2) * 400 + 1 * (y 0).val = 400 * t.val + (y 0).val; omega
    | ⟨1, _⟩ => show win0_4.index t (1 : Fin 2) * 40 + 1 * (y 1).val = (y 1).val; omega
  show k0_pay2 (F := Ideal) (PassA.iblk V c 3 t) (PassA.S1 V c) (PassA.iblk V c 2 t) ((cfg0.win 4).xinj (grid0.coords t) y)
    = (passA (n := 10000) (J := 128) (K := 128) (N := 40) (V c main_arg1) (V c main_arg0) (V c main_arg2) (V c main_arg3)) (((cfg0.win 4).blk t).view.emb y)
  refine (congrArg (k0_pay2 (F := Ideal) (PassA.iblk V c 3 t) (PassA.S1 V c) (PassA.iblk V c 2 t)) hin).trans ?_
  refine Eq.trans ?_ (congrArg (passA (n := 10000) (J := 128) (K := 128) (N := 40) (V c main_arg1) (V c main_arg0) (V c main_arg2) (V c main_arg3)) hout).symm
  exact stored_entry (V c main_arg1) (V c main_arg0) (V c main_arg2) (V c main_arg3)
    (PassA.iblk V c 3 t) (PassA.S1 V c) (PassA.iblk V c 2 t) (S1_eq V c) (funext (blockW2 V c t))
    ⟨400 * t.val + (y 0).val, by omega⟩ ⟨(y 0).val, hy0⟩ ⟨(y 1).val, hy1⟩ (fun j => blockA V c t ⟨(y 0).val, hy0⟩ ⟨400 * t.val + (y 0).val, by omega⟩ rfl j)

/-- An index of the array is in point `t`'s block iff each coordinate is in the block's range on its axis. -/
theorem mem_block (t : Fin cfg0.N) (i : S10000x40.Idx) :
    i ∈ ((cfg0.win 4).blk t).view.set ↔ ∀ a : Fin 2, win0_4.index t a * S400x40.size a ≤ (i a).val ∧ (i a).val < win0_4.index t a * S400x40.size a + S400x40.size a := by
  show i ∈ ((View.whole main_call0_v0).slice (win0_4.rect t)).set ↔ _
  rw [View.set_slice_whole, Rect.mem_set_unit]
  exact Iff.rfl

/-- Every row `r` of the array is in the block of the point `r / 400`. -/
theorem cover (i : S10000x40.Idx) :
    ∃ t : Fin cfg0.N, (cfg0.win 4).flush t = true ∧ i ∈ ((cfg0.win 4).blk t).view.set := by
  have hi0 : (i 0).val < 10000 := (i 0).isLt
  have hi1 : (i 1).val < 40 := (i 1).isLt
  have hq : (i 0).val / 400 < 25 := by omega
  refine ⟨⟨(i 0).val / 400, lt_of_lt_of_eq hq N_0.symm⟩, flush0_4 _, ?_⟩
  rw [mem_block]
  obtain ⟨-, -, -, -, -, -, -, -, e0, e1⟩ := index_facts ⟨(i 0).val / 400, lt_of_lt_of_eq hq N_0.symm⟩
  have e0' : win0_4.index ⟨(i 0).val / 400, lt_of_lt_of_eq hq N_0.symm⟩ (0 : Fin 2) = (i 0).val / 400 := e0
  intro a
  match a with
  | ⟨0, _⟩ =>
    show win0_4.index ⟨(i 0).val / 400, lt_of_lt_of_eq hq N_0.symm⟩ (0 : Fin 2) * 400 ≤ (i 0).val
      ∧ (i 0).val < win0_4.index ⟨(i 0).val / 400, lt_of_lt_of_eq hq N_0.symm⟩ (0 : Fin 2) * 400 + 400
    omega
  | ⟨1, _⟩ =>
    show win0_4.index ⟨(i 0).val / 400, lt_of_lt_of_eq hq N_0.symm⟩ (1 : Fin 2) * 40 ≤ (i 1).val
      ∧ (i 1).val < win0_4.index ⟨(i 0).val / 400, lt_of_lt_of_eq hq N_0.symm⟩ (1 : Fin 2) * 40 + 40
    omega

/-- After the first region the array between the passes holds `max (A · (x · w1), 0) · w2` of the arrays the region
    was entered with. -/
theorem arrA (c : Dev nD) :
    (PassA.dat (F := Ideal) V c).arrAt 4 cfg0.N
      = passA (n := 10000) (J := 128) (K := 128) (N := 40) (V c main_arg1) (V c main_arg0) (V c main_arg2) (V c main_arg3) :=
  (PassA.dat (F := Ideal) V c).arrAt_eq_of_cover 4 _ (fun t _ => flushed_eq V c t) cover

end Cert.KernelIdeal.ValueA

end
-- ==== Proof.ValueB.lean ====
/-
  From blocks to the array, at the ideal instance: what the second pass's write-backs leave in the result array.

  At grid point `t` the second pass stores, over its whole block of 400 rows of the result, the row log-softmax of
  `max (B · s, 0)` where `B` is the block of rows `400·t … 400·t + 399` of the propagation matrix and `s` is the whole array
  of the first pass's results. Every entry of the second pass depends on the matrix only through its own row, so the
  block written back is rows `400·t … 400·t + 399` of the second pass of the whole matrix; the 25 blocks tile the
  10000 rows, so the array ends holding the second pass of the arrays the region was entered with.
-/
import proofs.«135058_g16509854286320_cont_7to1_1500_2_alg».proof.Proof.PassB
import proofs.«135058_g16509854286320_cont_7to1_1500_2_alg».proof.Proof.Payloads
import Idealize.ShloMosaic.Lib.Pipeline.Value
import Idealize.ShloMosaic.Lib.ValueIdx

set_option maxRecDepth 16384

noncomputable section

namespace Cert.KernelIdeal.ValueB

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.DenseLayer Cert.PropagationChain Cert.Gcn

variable (V : (c : Dev nD) → (b : Ref sig .tc) → Buf (Elt Ideal) ((c : Thread nD τ).loc b))

/-! ## One entry of a stored block -/

/-- Entry `(p, q)` of what a point stores, from a block `B` of rows of the matrix `A` whose row `p` is row `r` of `A`:
    entry `(r, q)` of the second pass of `A`. -/
theorem stored_entry (A : Mat 10000 10000) (s : Mat 10000 40) (B : Vec Ideal S400x10000 .f32) (s' : Vec Ideal S10000x40 .f32)
    (r : Fin 10000) (p : Fin 400) (q : Fin 40) (hs : s' = s) (hB : ∀ j : Fin 10000, B (ix2 p j) = A (ix2 r j)) :
    k1_pay1 (F := Ideal) B s' (ix2 p q) = passB (n := 10000) (N := 40) A s (ix2 r q) := by
  subst hs
  rw [Payloads.payB_apply, passB_apply]
  exact passB_rows A B s' r p hB q

/-! ## The blocks' places in their arrays -/

/-- The two zero offsets of a whole-buffer access, as a constant function. -/
theorem zero_offsets : (![0, 0] : Fin 2 → Nat) = fun _ => 0 := funext fun a => by fin_cases a <;> rfl

/-- The block indices at a point, decided over the grid: the first pass's results are one block at `(0, 0)`; the
    matrix's block and the result's block at point `t` are both at `(t, 0)`. -/
theorem block_indices : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The block of the first pass's results at any point is the whole array. -/
theorem results_block (c : Dev nD) (t : Fin cfg1.N) : PassB.iblk (F := Ideal) V c 0 t = V c main_call0_v0 := by
  obtain ⟨e00, e01, -⟩ := block_indices t
  funext i
  show V c main_call0_v0 (((cfg1.win 0).blk t).view.emb i) = V c main_call0_v0 i
  refine congrArg _ (funext fun a => Fin.ext ?_)
  match a with
  | ⟨0, _⟩ => show win1_0.index t (0 : Fin 2) * 10000 + 1 * (i 0).val = (i 0).val; omega
  | ⟨1, _⟩ => show win1_0.index t (1 : Fin 2) * 40 + 1 * (i 1).val = (i 1).val; omega

/-- Row `p` of the matrix's block at point `t` is row `400·t + p` of the matrix. -/
theorem matrix_block_row (c : Dev nD) (t : Fin cfg1.N) (p : Fin 400) (r : Fin 10000) (hr : r.val = 400 * t.val + p.val)
    (j : Fin 10000) : PassB.iblk (F := Ideal) V c 1 t (ix2 p j) = V c main_arg1 (ix2 r j) := by
  obtain ⟨-, -, e10, e11, -⟩ := block_indices t
  show V c main_arg1 (((cfg1.win 1).blk t).view.emb (ix2 p j)) = V c main_arg1 (ix2 r j)
  refine congrArg _ (funext fun a => Fin.ext ?_)
  match a with
  | ⟨0, _⟩ => show win1_1.index t (0 : Fin 2) * 400 + 1 * p.val = r.val; omega
  | ⟨1, _⟩ => show win1_1.index t (1 : Fin 2) * 10000 + 1 * j.val = j.val; omega

/-! ## What a point writes back -/

/-- What point `t` writes back is block `t` of the second pass of the arrays the region was entered with. -/
theorem flushed_eq (c : Dev nD) (t : Fin cfg1.N) :
    (PassB.dat (F := Ideal) V c).flushed 2 t
      = ((cfg1.win 2).blk t).view.read (Elt Ideal) (passB (n := 10000) (N := 40) (V c main_arg1) (V c main_call0_v0)) := by
  show (cfg1.win 2).cut (grid1.coords t) ((PassB.dat (F := Ideal) V c).after 2 t) = _
  rw [PassB.after_2]
  unfold PassB.outB
  rw [View.canon_unit_zero zero_offsets]
  simp only [View.ld_unit_zero (S := S400x10000) zero_offsets, View.ld_unit_zero (S := S10000x40) zero_offsets]
  obtain ⟨-, -, -, -, e20, e21⟩ := block_indices t
  have ht : t.val < 25 := Nat.lt_of_lt_of_eq t.isLt N_1
  funext y
  have hy0 : (y 0).val < 400 := (y 0).isLt
  have hy1 : (y 1).val < 40 := (y 1).isLt
  have hr : 400 * t.val + (y 0).val < 10000 := by omega
  show k1_pay1 (F := Ideal) (PassB.iblk V c 1 t) (PassB.iblk V c 0 t) ((cfg1.win 2).xinj (grid1.coords t) y)
    = passB (n := 10000) (N := 40) (V c main_arg1) (V c main_call0_v0) (((cfg1.win 2).blk t).view.emb y)
  have hin : (cfg1.win 2).xinj (grid1.coords t) y = ix2 (⟨(y 0).val, hy0⟩ : Fin 400) (⟨(y 1).val, hy1⟩ : Fin 40) :=
    funext fun a => Fin.ext (match a with | ⟨0, _⟩ => rfl | ⟨1, _⟩ => rfl)
  have hout : ((cfg1.win 2).blk t).view.emb y = ix2 (⟨400 * t.val + (y 0).val, hr⟩ : Fin 10000) (⟨(y 1).val, hy1⟩ : Fin 40) := by
    funext a; apply Fin.ext
    match a with
    | ⟨0, _⟩ => show win1_2.index t (0 : Fin 2) * 400 + 1 * (y 0).val = 400 * t.val + (y 0).val; omega
    | ⟨1, _⟩ => show win1_2.index t (1 : Fin 2) * 40 + 1 * (y 1).val = (y 1).val; omega
  rw [hin, hout]
  exact stored_entry (V c main_arg1) (V c main_call0_v0) (PassB.iblk V c 1 t) (PassB.iblk V c 0 t)
    ⟨400 * t.val + (y 0).val, hr⟩ ⟨(y 0).val, hy0⟩ ⟨(y 1).val, hy1⟩ (results_block V c t)
    (fun j => matrix_block_row V c t ⟨(y 0).val, hy0⟩ ⟨400 * t.val + (y 0).val, hr⟩ rfl j)

/-! ## The blocks tile the array -/

/-- An index of the result array is in point `t`'s block iff each coordinate is in the block's range on its axis. -/
theorem mem_block (t : Fin cfg1.N) (i : S10000x40.Idx) :
    i ∈ ((cfg1.win 2).blk t).view.set
      ↔ ∀ a : Fin 2, win1_2.index t a * S400x40.size a ≤ (i a).val ∧ (i a).val < win1_2.index t a * S400x40.size a + S400x40.size a := by
  show i ∈ ((View.whole main_v0).slice (win1_2.rect t)).set ↔ _
  rw [View.set_slice_whole, Rect.mem_set_unit]
  exact Iff.rfl

/-- Row `r` of the result is written back by point `r / 400`. -/
theorem covered (i : S10000x40.Idx) :
    ∃ t : Fin cfg1.N, (cfg1.win 2).flush t = true ∧ i ∈ ((cfg1.win 2).blk t).view.set := by
  have hi0 : (i 0).val < 10000 := (i 0).isLt
  have hi1 : (i 1).val < 40 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, e20, e21⟩ := block_indices t
  refine ⟨t, flush1_2 t, ?_⟩
  rw [mem_block]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 40 ≤ (i 1).val ∧ (i 1).val < win1_2.index t (1 : Fin 2) * 40 + 40; omega

/-! ## The array after the region -/

/-- After the second region the result array holds the row log-softmax of `max (A · s2, 0)` of the arrays the region
    was entered with. -/
theorem arrB (c : Dev nD) :
    (PassB.dat (F := Ideal) V c).arrAt 2 cfg1.N
      = passB (n := 10000) (N := 40) (V c main_arg1) (V c main_call0_v0) :=
  (PassB.dat (F := Ideal) V c).arrAt_eq_of_cover 2 (passB (n := 10000) (N := 40) (V c main_arg1) (V c main_call0_v0))
    (fun t _ => flushed_eq V c t) covered

end Cert.KernelIdeal.ValueB

end
-- ==== Proof.KernelValue.lean ====
/-
  The idealized kernel's run with its result named: the two-layer graph convolution of its argument arrays.

  The run ends with every unscoped buffer at the last boundary's contents. Read at the result array those are what the
  second region's write-backs leave, which is the second pass of the propagation matrix and of the array between the
  passes as that region found them; the matrix it found is the launch's (the first region only reads it), and the
  array between the passes is what the first region's write-backs leave, the first pass of the launch arrays.
-/
import proofs.«135058_g16509854286320_cont_7to1_1500_2_alg».proof.Proof.Run
import proofs.«135058_g16509854286320_cont_7to1_1500_2_alg».proof.Proof.ValueA
import proofs.«135058_g16509854286320_cont_7to1_1500_2_alg».proof.Proof.ValueB

noncomputable section

namespace Cert.KernelIdeal.KernelValue

open Idealize.ShloMosaic Idealize.ShloMosaic.TcCoe Idealize.ShloMosaic.ValueIdx Idealize.SL.Sem
open Cert.KernelIdeal Cert.KernelIdeal.Gen Cert.DenseLayer Cert.PropagationChain Cert.Gcn

variable (m : (ℓ : Loc nD τ sig) → Buf (Elt Ideal) ℓ) (ρ : Dev nD → PrngReg)

/-- The last boundary's contents at the result array: the network of the launch arrays. -/
theorem result_eq (c : Dev nD) :
    Run.W2 (F := Ideal) m ρ c (Proc.devRef .tc main_v0)
      = gcn (n := 10000) (J := 128) (K := 128) (N := 40) (m ((c.tc : Thread nD τ).loc main_arg1)) (m ((c.tc : Thread nD τ).loc main_arg0)) (m ((c.tc : Thread nD τ).loc main_arg2)) (m ((c.tc : Thread nD τ).loc main_arg3)) := by
  rw [Run.W2_result, ValueB.arrB]
  show passB (Run.W1 m ρ c (Proc.devRef .tc main_arg1)) (Run.W1 m ρ c (Proc.devRef .tc main_call0_v0)) = _
  rw [Run.W1_main_arg1, Run.W1_between, ValueA.arrA]
  rfl

/-- Every weakly fair execution of the idealized kernel from a memory `m` terminates with its result array at the
    network of its argument arrays and the arguments unchanged. -/
theorem run_gcn :
    θ_run (defs (F := Ideal)) (onTc (τ := τ) (main (F := Ideal))) ⟨m, fun _ => 0, ρ⟩ (fun r => ∀ c : Dev nD,
      r.2.mem ((c.tc : Thread nD τ).loc main_v0)
          = gcn (n := 10000) (J := 128) (K := 128) (N := 40) (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (Run.mem_uc main_v0 (by decide))).trans (result_eq m ρ c),
     (h c _ (Run.mem_uc main_arg0 (by decide))).trans (Run.W2_main_arg0 m ρ c),
     (h c _ (Run.mem_uc main_arg1 (by decide))).trans (Run.W2_main_arg1 m ρ c),
     (h c _ (Run.mem_uc main_arg2 (by decide))).trans (Run.W2_main_arg2 m ρ c),
     (h c _ (Run.mem_uc main_arg3 (by decide))).trans (Run.W2_main_arg3 m ρ c)⟩) (Run.run_all m ρ)

end Cert.KernelIdeal.KernelValue

end
-- ==== Proof.RefValue.lean ====
/-
  The reference's run with its result named: the two-layer graph convolution of its argument arrays.

  The reference multiplies the features by the first weights, multiplies by the propagation matrix, clamps at zero,
  multiplies by the second weights, multiplies by the propagation matrix again, clamps at zero, and takes the
  logarithm of the row softmax in the host's spelling (the row's maximum once more against `-∞`, the sum of the
  exponentials taken from the zero word). Each product is read entry by entry as a row of the plain product, each
  clamp as the maximum with the zero word, and the last seven arrays at row `r` as the shifted log-softmax of row
  `r`; chained, the result array is the network of the specification at every index.
-/
import proofs.«135058_g16509854286320_cont_7to1_1500_2_alg».proof.Proof.RefRun
import proofs.«135058_g16509854286320_cont_7to1_1500_2_alg».proof.Proof.RefRead
import proofs.«135058_g16509854286320_cont_7to1_1500_2_alg».proof.Proof.LibGcnTwoPass

noncomputable section

namespace Cert.ReferenceIdeal.RefValue

open Idealize.ShloMosaic Idealize.ShloMosaic.TcCoe Idealize.ShloMosaic.ValueIdx Idealize.SL.Sem
open Cert.DenseLayer Cert.PropagationChain Cert.Gcn

/-! ## The four products' dimension numbers are those of a plain product -/

theorem plain_v0 : PlainDot (a := 10000) (K := 128) (N := 128) dot_S10000x128_S128x128_S10000x128_1_0_0_1_n_n :=
  ⟨rfl, rfl, ReadP.lhs_main_v0_0, ReadP.lhs_main_v0_1, ReadP.rhs_main_v0_0, ReadP.rhs_main_v0_1⟩

theorem plain_v1 : PlainDot (a := 10000) (K := 10000) (N := 128) dot_S10000x10000_S10000x128_S10000x128_1_0_0_1_n_n :=
  ⟨rfl, rfl, ReadP.lhs_main_v1_0, ReadP.lhs_main_v1_1, ReadP.rhs_main_v1_0, ReadP.rhs_main_v1_1⟩

theorem plain_v3 : PlainDot (a := 10000) (K := 128) (N := 40) dot_S10000x128_S128x40_S10000x40_1_0_0_1_n_n :=
  ⟨rfl, rfl, ReadP.lhs_main_v3_0, ReadP.lhs_main_v3_1, ReadP.rhs_main_v3_0, ReadP.rhs_main_v3_1⟩

theorem plain_v4 : PlainDot (a := 10000) (K := 10000) (N := 40) dot_S10000x10000_S10000x40_S10000x40_1_0_0_1_n_n :=
  ⟨rfl, rfl, ReadP.lhs_main_v4_0, ReadP.lhs_main_v4_1, ReadP.rhs_main_v4_0, ReadP.rhs_main_v4_1⟩

/-! ## The arrays of the two layers -/

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128x40, .f32⟩ : BufTy).Contents (Elt Ideal))

/-- The features times the first weights. -/
theorem stage_v0 : ReadP.val_main_v0 (F := Ideal) x0 x2 = mm (n := 10000) (J := 128) (K := 128) x0 x2 :=
  funext fun i => by
    unfold ReadP.val_main_v0
    simp only [Host.dotGeneral]
    exact dotGeneral_apply plain_v0 _ _ x0 x2 i

/-- The propagation matrix times that product. -/
theorem stage_v1 : ReadP.val_main_v1 (F := Ideal) x0 x1 x2
    = mm (n := 10000) (J := 10000) (K := 128) x1 (mm (n := 10000) (J := 128) (K := 128) x0 x2) :=
  funext fun i => by
    unfold ReadP.val_main_v1
    rw [stage_v0]
    simp only [Host.dotGeneral]
    exact dotGeneral_apply plain_v1 _ _ x1 _ i

/-- Clamped at zero from below: the first layer. -/
theorem stage_v2 : ReadP.val_main_v2 (F := Ideal) x0 x1 x2
    = reluLayer (a := 10000) (K := 10000) (N := 128) x1 (mm (n := 10000) (J := 128) (K := 128) x0 x2) :=
  funext fun i => by
    rw [ReadP.val_main_v2_apply, ReadP.val_main_call0_v0_apply, ReadP.val_main_call0_cst_apply, stage_v1]
    rfl

/-- The first layer times the second weights: the first pass. -/
theorem stage_v3 : ReadP.val_main_v3 (F := Ideal) x0 x1 x2 x3
    = passA (n := 10000) (J := 128) (K := 128) (N := 40) x1 x0 x2 x3 :=
  funext fun i => by
    unfold ReadP.val_main_v3
    rw [stage_v2]
    simp only [Host.dotGeneral]
    exact dotGeneral_apply plain_v3 _ _ _ x3 i

/-- The propagation matrix times the first pass, clamped at zero from below. -/
theorem stage_v5 : ReadP.val_main_v5 (F := Ideal) x0 x1 x2 x3
    = reluLayer (a := 10000) (K := 10000) (N := 40) x1 (passA (n := 10000) (J := 128) (K := 128) (N := 40) x1 x0 x2 x3) :=
  funext fun i => by
    have e4 : ReadP.val_main_v4 (F := Ideal) x0 x1 x2 x3 i
        = prodRow (a := 10000) (K := 10000) (N := 40) x1 (passA (n := 10000) (J := 128) (K := 128) (N := 40) x1 x0 x2 x3) (i 0) (i 1) := by
      unfold ReadP.val_main_v4
      rw [stage_v3]
      simp only [Host.dotGeneral]
      exact dotGeneral_apply plain_v4 _ _ x1 _ i
    rw [ReadP.val_main_v5_apply, ReadP.val_main_call1_v0_apply, ReadP.val_main_call1_cst_apply, e4]
    rfl

/-! ## The row log-softmax, read along row `r` -/

/-- The row's maximum as the host takes it: reduced from `-∞`, then once more against `-∞`. -/
theorem top_apply (r : Fin 10000) :
    ReadP.val_main_call2_v2 (F := Ideal) x0 x1 x2 x3 (ix1 r)
      = rowTop (fun k : Fin 40 => ReadP.val_main_v5 (F := Ideal) x0 x1 x2 x3 (ix2 r k)) := by
  rw [ReadP.val_main_call2_v2_apply, ReadP.val_main_call2_v1_apply, ReadP.val_main_call2_cst_0_apply]
  unfold ReadP.val_main_call2_v0
  rw [hostReduce_max_rows_apply (a := 10000) (b := 40) _ _ _ (by decide) _ r]
  rfl

/-- The entries minus their row's maximum. -/
theorem shifted_apply (r : Fin 10000) (k : Fin 40) :
    ReadP.val_main_call2_v5 (F := Ideal) x0 x1 x2 x3 (ix2 r k)
      = ReadP.val_main_v5 (F := Ideal) x0 x1 x2 x3 (ix2 r k)
        - rowTop (fun k : Fin 40 => ReadP.val_main_v5 (F := Ideal) x0 x1 x2 x3 (ix2 r k)) := by
  have ei : ReadP.idx_main_call2_v3 (ReadP.idx_main_call2_v4 (ix2 r k)) = ix1 r :=
    funext fun ax => by match ax with | ⟨0, _⟩ => rfl
  rw [ReadP.val_main_call2_v5_apply, ReadP.val_main_call2_v4_apply, ReadP.val_main_call2_v3_apply, ei, top_apply]
  rfl

/-- The row's sum of the exponentials, taken from the zero word. -/
theorem sum_apply (r : Fin 10000) :
    ReadP.val_main_call2_v7 (F := Ideal) x0 x1 x2 x3 (ix1 r)
      = Ideal.ofBits .f32 0x00000000#32 + ∑ j : Fin 40, Ideal.exp (ReadP.val_main_v5 (F := Ideal) x0 x1 x2 x3 (ix2 r j)
          - rowTop (fun k : Fin 40 => ReadP.val_main_v5 (F := Ideal) x0 x1 x2 x3 (ix2 r k))) := by
  rw [ReadP.val_main_call2_v7_apply, ReadP.val_main_call2_cst_1_apply]
  refine congrArg (_ + ·) (Finset.sum_congr rfl fun j _ => ?_)
  have ei : ReadP.idx_main_call2_v7 (ix1 r) j = ix2 r j :=
    funext fun ax => by match ax with | ⟨0, _⟩ => rfl | ⟨1, _⟩ => rfl
  rw [ei, ReadP.val_main_call2_v6_apply, shifted_apply]
  rfl

/-- The result array at `(r, q)` is the shifted log-softmax of row `r` of the second layer, at `q`. -/
theorem stage_v6 (r : Fin 10000) (q : Fin 40) :
    ReadP.val_main_v6 (F := Ideal) x0 x1 x2 x3 (ix2 r q)
      = logSoftmaxShifted (fun k : Fin 40 => ReadP.val_main_v5 (F := Ideal) x0 x1 x2 x3 (ix2 r k)) q := by
  have ei : ReadP.idx_main_call2_v8 (ReadP.idx_main_call2_v10 (ix2 r q)) = ix1 r :=
    funext fun ax => by match ax with | ⟨0, _⟩ => rfl
  rw [ReadP.val_main_v6_apply, shifted_apply, ReadP.val_main_call2_v10_apply, ReadP.val_main_call2_v9_apply,
    ReadP.val_main_call2_v8_apply, ei, sum_apply]
  rfl

/-- The reference's result is the network of its four argument arrays. -/
theorem val_eq_gcn : ReadP.val_main_v6 (F := Ideal) x0 x1 x2 x3
    = gcn (n := 10000) (J := 128) (K := 128) (N := 40) x1 x0 x2 x3 :=
  funext fun i => by
    obtain ⟨r, q, rfl⟩ : ∃ (r : Fin 10000) (q : Fin 40), i = ix2 r q := ⟨i 0, i 1, eq_ix2 i⟩
    rw [stage_v6, logSoftmaxShifted_eq, stage_v5]
    rfl

end Stages

/-- Every weakly fair execution of the reference from a memory `m` terminates with its result array at the network
    of its argument arrays and the arguments unchanged. -/
theorem run_gcn (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v6)
            = gcn (n := 10000) (J := 128) (K := 128) (N := 40) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((ReadP.val_main_v6_eq _ _ _ _).trans (val_eq_gcn _ _ _ _)), (h c).2⟩)
    (ValueP.run (F := Ideal) m g)

end Cert.ReferenceIdeal.RefValue

end
-- ==== Proof.lean ====
/-
  A two-layer graph convolution over a dense `10000 × 10000` propagation matrix `A`: `log_softmax (max (A · s2, 0))`
  along the rows, with `s2 = max (A · (x · w1), 0) · w2`.

  The kernel computes it in two passes over blocks of 400 rows of `A`. The first keeps `x · w1` in a scratch buffer,
  computed at the first block and read at every later one, and writes block by block `max (A_blk · (x · w1), 0) · w2`;
  the second writes block by block the row log-softmax of `max (A_blk · s2, 0)`. The reference forms the same four
  products of whole matrices one after the other. Row `r` of every product with `A` depends on `A` only through its
  row `r`, no contracted axis is split, both programs take the row maximum from `-∞` and subtract it before the
  logarithm, and a product into a zero accumulator is the product: index by index the two programs are one function of
  the arguments on the extended reals, and no law that needs finite entries is used.

  The frames: each pass is a pipeline region whose body, at any grid point, runs on whole staging buffers and leaves
  the inputs as they were; the first region's invariant carries the scratch's contents from point to point. The
  regions are run one after the other from the launch, the unscoped buffers named at each boundary; no region writes an
  argument. The same text serves the word-level program and the idealized one.

  The idealization rewrote nothing, so there is nothing to preserve beyond the program's own text.
-/
import proofs.«135058_g16509854286320_cont_7to1_1500_2_alg».proof.Defs
import proofs.«135058_g16509854286320_cont_7to1_1500_2_alg».proof.Proof.Gen.Kernel
import proofs.«135058_g16509854286320_cont_7to1_1500_2_alg».proof.Proof.Gen.KernelIdeal
import proofs.«135058_g16509854286320_cont_7to1_1500_2_alg».proof.Proof.Gen.ReferenceIdeal
import proofs.«135058_g16509854286320_cont_7to1_1500_2_alg».proof.Proof.Gen.Pre_finite_inputs
import proofs.«135058_g16509854286320_cont_7to1_1500_2_alg».proof.Proof.KRun
import proofs.«135058_g16509854286320_cont_7to1_1500_2_alg».proof.Proof.KernelValue
import proofs.«135058_g16509854286320_cont_7to1_1500_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Run.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_gcn m ρ)

/-- Both programs end with their result array at the network of their argument arrays, and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.KernelValue.run_gcn m ρ, ?_⟩
  refine (θ_run Cert.ReferenceIdeal.defs _ _).mono (fun _ h c => ⟨(h c).1.trans ?_, (h c).2⟩)
    (Cert.ReferenceIdeal.RefValue.run_gcn m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
